-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S64 : Shape := ⟨1, ![64]⟩
abbrev S131072 : Shape := ⟨1, ![131072]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg3 : IVec S64 32) (main_v13 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v13 main_v16
  let main_c_6 : IVec S_ 32 := constantI S_ 32 128#32
  let main_v18 : IVec S64 32 := broadcastInDim S64 ![] bcast_S_S64 main_c_6
  let main_v19 : IVec S64 1 := cmpi .slt main_arg3 main_v18
  let main_c_7 : IVec S_ 1 := constantI S_ 1 1#1
  let main_v20 : IVec S_ 1 := (fun x v => Host.reduce IntOp.andi x v reducesTo_S64_S_d0 h_S_) main_v19 main_c_7
  let main_v21 : IVec S_ 1 := andi main_v17 main_v20
  main_v21

def fn {F : FTy → Type} [FloatOps F] (main_arg0 : FVec F S131072x128 .f32) (main_arg1 : FVec F S131072x128 .f32) (main_arg2 : FVec F S131072x128 .f32) (main_arg3 : IVec S64 32) (main_arg4 : IVec S131072 1) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_c_4 : IVec S_ 32 := constantI S_ 32 4294967168#32
  let main_v14 : IVec S64 32 := broadcastInDim S64 ![] bcast_S_S64 main_c_4
  let main_v15 : IVec S64 1 := cmpi .sge main_arg3 main_v14
  let main_c_5 : IVec S_ 1 := constantI S_ 1 1#1
  fn_part1 (F := F) main_arg3 main_v13 main_v15 main_c_5
-- ==== Kernel.lean ====
abbrev S131072x128 : Shape := ⟨2, ![131072, 128]⟩
abbrev S64 : Shape := ⟨1, ![64]⟩
abbrev S131072 : Shape := ⟨1, ![131072]⟩
abbrev S_ : Shape := ⟨0, ![]⟩
abbrev S128 : Shape := ⟨1, ![128]⟩
abbrev S64x1 : Shape := ⟨2, ![64, 1]⟩
abbrev S1x128 : Shape := ⟨2, ![1, 128]⟩
abbrev S131072x1 : Shape := ⟨2, ![131072, 1]⟩
abbrev S2x1x1 : Shape := ⟨3, ![2, 1, 1]⟩
abbrev S8192x128 : Shape := ⟨2, ![8192, 128]⟩
abbrev S8192x1 : Shape := ⟨2, ![8192, 1]⟩
abbrev S1x1x1 : Shape := ⟨3, ![1, 1, 1]⟩
abbrev S1x1 : Shape := ⟨2, ![1, 1]⟩
abbrev S2048x128 : Shape := ⟨2, ![2048, 128]⟩
abbrev S2048x1 : Shape := ⟨2, ![2048, 1]⟩
abbrev S2048 : Shape := ⟨1, ![2048]⟩
abbrev S1 : Shape := ⟨1, ![1]⟩

abbrev nBuf : Space → Nat
  | .hbm => 30
  | .vmem => 12
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S64, .i32⟩
  | .hbm, ⟨4, _⟩ => ⟨S131072, .i1⟩
  | .hbm, ⟨5, _⟩ => ⟨S_, .f32⟩
  | .hbm, ⟨6, _⟩ => ⟨S128, .f32⟩
  | .hbm, ⟨7, _⟩ => ⟨S_, .i32⟩
  | .hbm, ⟨8, _⟩ => ⟨S64, .i32⟩
  | .hbm, ⟨9, _⟩ => ⟨S64, .i1⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S64, .i32⟩
  | .hbm, ⟨14, _⟩ => ⟨S64x1, .i32⟩
  | .hbm, ⟨15, _⟩ => ⟨S_, .f32⟩
  | .hbm, ⟨16, _⟩ => ⟨S64, .f32⟩
  | .hbm, ⟨17, _⟩ => ⟨S128, .f32⟩
  | .hbm, ⟨18, _⟩ => ⟨S1x128, .f32⟩
  | .hbm, ⟨19, _⟩ => ⟨S131072, .f32⟩
  | .hbm, ⟨20, _⟩ => ⟨S131072x1, .f32⟩
  | .hbm, ⟨21, _⟩ => ⟨S2x1x1, .f32⟩
  | .hbm, ⟨22, _⟩ => ⟨S_, .f32⟩
  | .hbm, ⟨23, _⟩ => ⟨S_, .f32⟩
  | .hbm, ⟨24, _⟩ => ⟨S131072, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x1, .f32⟩
  | .local _ .vmem, ⟨7, _⟩ => ⟨S8192x1, .f32⟩
  | .local _ .vmem, ⟨8, _⟩ => ⟨S1x128, .f32⟩
  | .local _ .vmem, ⟨9, _⟩ => ⟨S1x1x1, .f32⟩
  | .local _ .vmem, ⟨10, _⟩ => ⟨S1x1x1, .f32⟩
  | .local _ .vmem, ⟨11, _⟩ => ⟨S1x1, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def k0_mult1 : BitVec 32 :=
  let c0_i32_2 : BitVec 32 := 0#32
  let c2048_i32 : BitVec 32 := 2048#32
  let v6 : BitVec 32 := Scalar.muli c0_i32_2 c2048_i32
  v6
def k0_off1 (c0_i32_2 : BitVec 32) : Fin 2 → Nat :=
  let c2048_i32 : BitVec 32 := 2048#32
  let v6 : BitVec 32 := Scalar.muli c0_i32_2 c2048_i32
  let v7 : BitVec 32 := v6
  let v8 : Index := Scalar.indexCast v7
  let c0_3 : Index := 0#32
  ![v8.toNat, 0]
def k0_off2 (c0_i32_2 : BitVec 32) : Fin 2 → Nat :=
  let c2048_i32 : BitVec 32 := 2048#32
  let v6 : BitVec 32 := Scalar.muli c0_i32_2 c2048_i32
  let v7 : BitVec 32 := v6
  let v14 : Index := Scalar.indexCast v7
  let c0_6 : Index := 0#32
  ![v14.toNat, 0]
def k0_mult2 : BitVec 32 :=
  let c1_i32 : BitVec 32 := 1#32
  let c2048_i32_18 : BitVec 32 := 2048#32
  let v57 : BitVec 32 := Scalar.muli c1_i32 c2048_i32_18
  v57
def k0_mult3 : BitVec 32 :=
  let c2_i32 : BitVec 32 := 2#32
  let c2048_i32_34 : BitVec 32 := 2048#32
  let v108 : BitVec 32 := Scalar.muli c2_i32 c2048_i32_34
  v108
def k0_mult4 : BitVec 32 :=
  let c3_i32 : BitVec 32 := 3#32
  let c2048_i32_50 : BitVec 32 := 2048#32
  let v159 : BitVec 32 := Scalar.muli c3_i32 c2048_i32_50
  v159
def k0_cond2 (i : grid0.Coords) : BitVec 1 :=
  let arg1 : BitVec 32 := BitVec.ofNat 32 (i 1).val
  let c7_i32 : BitVec 32 := 7#32
  let v215 : BitVec 1 := Scalar.cmpi .eq arg1 c7_i32
  let v216 : BitVec 32 := Scalar.extui v215
  let c0_i32_70 : BitVec 32 := 0#32
  let v217 : BitVec 1 := Scalar.cmpi .ne v216 c0_i32_70
  v217

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S128 : S_.BroadcastsInDim S128 (![] : Fin 0 → Fin S128.rank)
  bcast_S_S64 : S_.BroadcastsInDim S64 (![] : Fin 0 → Fin S64.rank)
  bcast_S64_S64x1_0 : S64.BroadcastsInDim S64x1 (![0] : Fin 1 → Fin S64x1.rank)
  shapeCasts_S128_S1x128 : S128.ShapeCasts S1x128
  shapeCasts_S131072_S131072x1 : S131072.ShapeCasts S131072x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S2048x128 : 0 < S2048x128.numel
  h_S2048x1 : 0 < S2048x1.numel
  shapeCasts_S2048x1_S2048x1 : S2048x1.ShapeCasts S2048x1
  broadcasts_S1x128_S2048x128 : S1x128.Broadcasts S2048x128
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  reducesTo_S131072_S_d0 : S131072.ReducesTo [0] S_
  scatter_S128_S64x1_S64_n_0_0_1_wf : ScatterDims.WF S128 S64x1 S64 [] [0] [0] 1
  hrank0 : 0 < grid0.rank
  k0_mult1_dvd : 2048 ∣ k0_mult1.toNat
  k0_off1_inb : ∀ (r : Fin 4), ∀ a, (k0_off1 (BitVec.ofNat 32 r.val)) a + S2048x128.size a ≤ S8192x128.size a
  k0_off2_inb : ∀ (r : Fin 4), ∀ a, (k0_off2 (BitVec.ofNat 32 r.val)) a + S2048x1.size a ≤ S8192x1.size a
  k0_mult2_dvd : 2048 ∣ k0_mult2.toNat
  k0_mult3_dvd : 2048 ∣ k0_mult3.toNat
  k0_mult4_dvd : 2048 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S131072x128.size a
  hwx0_2 : ∀ i : grid0.Coords, EltTy.bits .f32 = 32 ∨ (Rect.block (s := S131072x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x1.size a ≤ S131072x1.size a
  hwx0_3 : ∀ i : grid0.Coords, EltTy.bits .f32 = 32 ∨ (Rect.block (s := S131072x1) S8192x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

def scatter_S128_S64x1_S64_n_0_0_1 : ScatterDims S128 S64x1 S64 where
  updateWindowDims := []
  insertedWindowDims := [0]
  scatterDimsToOperandDims := [0]
  indexVectorDim := 1
  wf := scatter_S128_S64x1_S64_n_0_0_1_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S8192x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S131072x128 : Shape := ⟨2, ![131072, 128]⟩
abbrev S64 : Shape := ⟨1, ![64]⟩
abbrev S131072 : Shape := ⟨1, ![131072]⟩
abbrev S_ : Shape := ⟨0, ![]⟩
abbrev S64x1 : Shape := ⟨2, ![64, 1]⟩
abbrev S131072x64 : Shape := ⟨2, ![131072, 64]⟩
abbrev S131072x1 : Shape := ⟨2, ![131072, 1]⟩

abbrev nBuf : Space → Nat
  | .hbm => 82
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S64, .i32⟩
  | .hbm, ⟨4, _⟩ => ⟨S131072, .i1⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S131072x64, .f32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S64x1, .i32⟩
  | .hbm, ⟨22, _⟩ => ⟨S131072x64, .f32⟩
  | .hbm, ⟨23, _⟩ => ⟨S_, .i32⟩
  | .hbm, ⟨24, _⟩ => ⟨S64, .i32⟩
  | .hbm, ⟨25, _⟩ => ⟨S64, .i1⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S64, .i32⟩
  | .hbm, ⟨30, _⟩ => ⟨S64x1, .i32⟩
  | .hbm, ⟨31, _⟩ => ⟨S131072x64, .f32⟩
  | .hbm, ⟨32, _⟩ => ⟨S_, .f32⟩
  | .hbm, ⟨33, _⟩ => ⟨S131072x64, .f32⟩
  | .hbm, ⟨34, _⟩ => ⟨S131072x64, .i1⟩
  | .hbm, ⟨35, _⟩ => ⟨S_, .f32⟩
  | .hbm, ⟨36, _⟩ => ⟨S131072x64, .f32⟩
  | .hbm, ⟨37, _⟩ => ⟨S131072x64, .f32⟩
  | .hbm, ⟨38, _⟩ => ⟨S_, .f32⟩
  | .hbm, ⟨39, _⟩ => ⟨S131072x64, .f32⟩
  | .hbm, ⟨40, _⟩ => ⟨S131072x64, .f32⟩
  | .hbm, ⟨41, _⟩ => ⟨S131072x64, .f32⟩
  | .hbm, ⟨42, _⟩ => ⟨S_, .f32⟩
  | .hbm, ⟨43, _⟩ => ⟨S131072x64, .f32⟩
  | .hbm, ⟨44, _⟩ => ⟨S131072x64, .f32⟩
  | .hbm, ⟨45, _⟩ => ⟨S131072x64, .f32⟩
  | .hbm, ⟨46, _⟩ => ⟨S131072x64, .f32⟩
  | .hbm, ⟨47, _⟩ => ⟨S131072x64, .f32⟩
  | .hbm, ⟨48, _⟩ => ⟨S_, .f32⟩
  | .hbm, ⟨49, _⟩ => ⟨S131072x64, .f32⟩
  | .hbm, ⟨50, _⟩ => ⟨S131072x64, .f32⟩
  | .hbm, ⟨51, _⟩ => ⟨S131072x64, .f32⟩
  | .hbm, ⟨52, _⟩ => ⟨S_, .f32⟩
  | .hbm, ⟨53, _⟩ => ⟨S131072x64, .f32⟩
  | .hbm, ⟨54, _⟩ => ⟨S131072x64, .f32⟩
  | .hbm, ⟨55, _⟩ => ⟨S_, .f32⟩
  | .hbm, ⟨56, _⟩ => ⟨S131072x64, .f32⟩
  | .hbm, ⟨57, _⟩ => ⟨S131072x64, .f32⟩
  | .hbm, ⟨58, _⟩ => ⟨S131072x64, .f32⟩
  | .hbm, ⟨59, _⟩ => ⟨S_, .f32⟩
  | .hbm, ⟨60, _⟩ => ⟨S131072x64, .f32⟩
  | .hbm, ⟨61, _⟩ => ⟨S131072x64, .f32⟩
  | .hbm, ⟨62, _⟩ => ⟨S131072x64, .f32⟩
  | .hbm, ⟨63, _⟩ => ⟨S131072x64, .f32⟩
  | .hbm, ⟨64, _⟩ => ⟨S131072x64, .f32⟩
  | .hbm, ⟨65, _⟩ => ⟨S131072x64, .f32⟩
  | .hbm, ⟨66, _⟩ => ⟨S131072x64, .f32⟩
  | .hbm, ⟨67, _⟩ => ⟨S131072x64, .f32⟩
  | .hbm, ⟨68, _⟩ => ⟨S131072x64, .f32⟩
  | .hbm, ⟨69, _⟩ => ⟨S131072x64, .f32⟩
  | .hbm, ⟨70, _⟩ => ⟨S131072x64, .f32⟩
  | .hbm, ⟨71, _⟩ => ⟨S131072, .f32⟩
  | .hbm, ⟨72, _⟩ => ⟨S131072x1, .f32⟩
  | .hbm, ⟨73, _⟩ => ⟨S131072x64, .f32⟩
  | .hbm, ⟨74, _⟩ => ⟨S131072x64, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_cst_13 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S_S131072x64 : S_.BroadcastsInDim S131072x64 (![] : Fin 0 → Fin S131072x64.rank)
  bcast_S131072_S131072x1_0 : S131072.BroadcastsInDim S131072x1 (![0] : Fin 1 → Fin S131072x1.rank)
  bcast_S131072x1_S131072x64_0_1 : S131072x1.BroadcastsInDim S131072x64 (![0, 1] : Fin 2 → Fin S131072x64.rank)
  reducesTo_S131072x64_S_d0_1 : S131072x64.ReducesTo [0, 1] S_
  h_S_ : 0 < S_.numel
  reducesTo_S131072_S_d0 : S131072.ReducesTo [0] S_
  gather_S131072x128_S64x1_S131072x64_0_1_n_n_1_1_1310721_wf : GatherDims.WF S131072x128 S64x1 S131072x64 [0] [1] [] [1] [] 1 ![131072, 1]

variable [Facts₀]

def gather_S131072x128_S64x1_S131072x64_0_1_n_n_1_1_1310721 : GatherDims S131072x128 S64x1 S131072x64 where
  offsetDims := [0]
  collapsedSliceDims := [1]
  operandBatchingDims := []
  startIndicesBatchingDims := []
  startIndexMap := [1]
  indexVectorDim := 1
  sliceSizes := ![131072, 1]
  wf := gather_S131072x128_S64x1_S131072x64_0_1_n_n_1_1_1310721_wf

class Facts : Prop extends Facts₀ where

variable [Facts]
-- ==== Proof.Spec.lean ====
/-
  The mathematics both programs compute, stated once, over the extended reals and free of either program.

  For a row b and a column c of the three [131072, 128] arrays O ("output"), OC ("output_consistency"), Y ("label") the
  per-element loss is
      per o oc y = -(y * clog o + (1 - y) * clog (1 - o)) + (o - sharp o)^2 + (oc - sharp o)^2,
  with clog x = max (log x) (-100) and sharp o = o + (1 - o)/4 where o > 1/2, o - o/4 elsewhere.
  An index word v of class_idx names the column colOf v (a negative word counts from the end: v + 128).
  The reference sums, for each row, the loss at the 64 named columns; the kernel sums it at all 128 columns, each
  weighted by how many of the 64 index words name it. Both multiply a row by its 0/1 mask, add all rows up and divide
  by 64 times the number of masked rows.
-/
import Idealize.ShloMosaic.PureOps.Ideal
import Idealize.ShloMosaic.PureOps.Ideal.Laws
import Idealize.ShloMosaic.Lib.ValueIdx

noncomputable section

namespace Cert.SemiLoss

open Idealize.ShloMosaic Idealize.ShloMosaic.ValueIdx

/-! ## The literals, as the words both programs print -/

/-- 0.5 -/
abbrev cHalf : EReal := Ideal.ofBits .f32 0x3F000000#32
/-- 1.0 -/
abbrev cOne : EReal := Ideal.ofBits .f32 0x3F800000#32
/-- 4.0 -/
abbrev cFour : EReal := Ideal.ofBits .f32 0x40800000#32
/-- -100.0 -/
abbrev cFloor : EReal := Ideal.ofBits .f32 0xC2C80000#32
/-- 0.0 -/
abbrev cZero : EReal := Ideal.ofBits .f32 0x00000000#32
/-- 64.0 -/
abbrev c64 : EReal := Ideal.ofBits .f32 0x42800000#32

/-! ## The per-element loss -/

/-- The sharpened pseudo-label: o + (1 - o)/4 above the threshold 1/2, o - o/4 at or below it. -/
def sharp (o : EReal) : EReal :=
  Scalar.select (Ideal.cmp .ogt o cHalf) (o + Ideal.div (cOne - o) cFour) (o - Ideal.div o cFour)

/-- The logarithm clamped below at -100. -/
def clog (x : EReal) : EReal := max (Ideal.log x) cFloor

/-- Binary cross-entropy of the label against the prediction, plus the squared distances of the prediction and of the
    second prediction from the sharpened pseudo-label. -/
def per (o oc y : EReal) : EReal :=
  -(y * clog o + (cOne - y) * clog (cOne - o)) + (o - sharp o) * (o - sharp o) + (oc - sharp o) * (oc - sharp o)

/-! ## Columns, weights, mask -/

/-- The column an index word names: the word itself, or the word plus 128 when it is negative. (Total: reduced mod 128;
    for a word in [-128, 128) no reduction happens.) -/
def colOf (v : BitVec 32) : Fin 128 :=
  ⟨((if v.toInt < 0 then v.toInt + 128 else v.toInt).toNat) % 128, Nat.mod_lt _ (by decide)⟩

/-- The wrap both programs apply to an index word before they use it: add 128 to a negative word. -/
def wrapWord (v : BitVec 32) : BitVec 32 := Scalar.select (IntOp.cmpi .slt v 0#32) (IntOp.addi v 128#32) v

/-- Every index word lies in [-128, 128): it names a column of a 128-column array, from the front or from the end. -/
def InRange (x3 : IVec ⟨1, ![64]⟩ 32) : Prop :=
  ∀ k : Fin 64, -128 ≤ (x3 (ix1 k)).toInt ∧ (x3 (ix1 k)).toInt < 128

/-- The column the k-th index word names. -/
def col (x3 : IVec ⟨1, ![64]⟩ 32) (k : Fin 64) : Fin 128 := colOf (x3 (ix1 k))

/-- The weight of column c: zero plus a one for every index word that names it. -/
def weight (x3 : IVec ⟨1, ![64]⟩ 32) (c : Fin 128) : EReal :=
  cZero + ∑ _k ∈ Finset.univ.filter (fun k : Fin 64 => col x3 k = c), cOne

/-- The mask of row b as a number: 0 or 1. -/
def maskOf (x4 : IVec ⟨1, ![131072]⟩ 1) (b : Fin 131072) : EReal :=
  FloatOps.uitofp (F := Ideal) .f32 (x4 (ix1 b))

/-! ## A row's loss, in the two arrangements, and the result -/

variable (O OC Y : FVec Ideal ⟨2, ![131072, 128]⟩ .f32) (x3 : IVec ⟨1, ![64]⟩ 32) (x4 : IVec ⟨1, ![131072]⟩ 1)

/-- The loss at row b, column c. -/
def lossAt (b : Fin 131072) (c : Fin 128) : EReal := per (O (ix2 b c)) (OC (ix2 b c)) (Y (ix2 b c))

/-- The kernel's arrangement: every column, weighted by its multiplicity, then the row's mask. -/
def rowLossW (b : Fin 131072) : EReal := (∑ c : Fin 128, lossAt O OC Y b c * weight x3 c) * maskOf x4 b

/-- The reference's arrangement: the 64 named columns, each masked. -/
def rowLossG (b : Fin 131072) : EReal := ∑ k : Fin 64, lossAt O OC Y b (col x3 k) * maskOf x4 b

/-- The sum over all rows (the kernel's arrangement). -/
def total : EReal := ∑ b : Fin 131072, rowLossW O OC Y x3 x4 b

/-- The number of masked rows, as the programs compute it: zero plus the sum of the masks. -/
def count : EReal := cZero + ∑ b : Fin 131072, maskOf x4 b

/-- The result: the total from zero, over 64 times the count. -/
def result : EReal := Ideal.div (cZero + total O OC Y x3 x4) (count x4 * c64)

/-- The sum over all rows and named columns, as the reference takes it. -/
def totalG : EReal := ∑ b : Fin 131072, rowLossG O OC Y x3 x4 b

/-- The result in the reference's arrangement. -/
def resultG : EReal := Ideal.div (cZero + totalG O OC Y x3 x4) (count x4 * c64)

/-! ## One tile of 8192 rows, as the kernel walks it: four chunks of 2048 rows -/

variable (B0 B1 B2 : FVec Ideal ⟨2, ![8192, 128]⟩ .f32) (BM : FVec Ideal ⟨2, ![8192, 1]⟩ .f32)
  (BW : FVec Ideal ⟨2, ![1, 128]⟩ .f32)

/-- Row r of chunk j of a tile. -/
def chunkRow (j : Fin 4) (r : Fin 2048) : Fin 8192 := ⟨2048 * j.val + r.val, by omega⟩

/-- A chunk's contribution: over its 2048 rows, the weighted sum over the 128 columns times the row's mask. -/
def chunkLoss (j : Fin 4) : EReal :=
  ∑ r : Fin 2048, (∑ c : Fin 128, per (B0 (ix2 (chunkRow j r) c)) (B1 (ix2 (chunkRow j r) c)) (B2 (ix2 (chunkRow j r) c))
      * BW (ix2 0 c)) * BM (ix2 (chunkRow j r) 0)

/-- A tile's contribution: the four chunks added in order, from zero. -/
def tileLoss : EReal :=
  (((cZero + chunkLoss B0 B1 B2 BM BW 0) + chunkLoss B0 B1 B2 BM BW 1) + chunkLoss B0 B1 B2 BM BW 2)
    + chunkLoss B0 B1 B2 BM BW 3

end Cert.SemiLoss

end
-- ==== Proof.KerPieces.lean ====
/-
  What one grid point leaves behind, as a value at Ideal. The body walks its tile of 8192 rows in four chunks of 2048:
  per chunk, the per-element loss times the column weight, summed along the 128 columns, times the row's mask, summed
  along the 2048 rows; the four chunk sums added in order from zero; and that added to the accumulator. At a core's
  first tile the accumulator has just been reset to zero; at its last tile the new accumulator is also the output block.
-/
import proofs.«406414_j7834020348691_3_alg».proof.Proof.Spec
import proofs.«406414_j7834020348691_3_alg».proof.Proof.Gen.KernelIdeal.Frame
import Idealize.ShloMosaic.Lib.Pipeline.Value
import Idealize.ShloMosaic.Lib.ValueLayout
import Idealize.ShloMosaic.Lib.Tactic

noncomputable section

namespace Cert.KernelIdeal.Tile

open Idealize.ShloMosaic Idealize.ShloMosaic.TcCoe Idealize.SL.Sem Idealize.ShloMosaic.ValueIdx
open Cert.KernelIdeal Cert.KernelIdeal.Gen Cert.SemiLoss

variable (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x1 .f32) (harg5 : arg5.IsWhole) (arg6 : Memref sig .tc .vmem S1x128 .f32) (harg6 : arg6.IsWhole) (arg7 : Memref sig .tc .vmem S1x1x1 .f32) (harg7 : arg7.IsWhole) (arg8 : Memref sig .tc .vmem S1x1 .f32) (harg8 : arg8.IsWhole)
variable (x0 x1 x2 : Vec Ideal S8192x128 .f32) (x3 : Vec Ideal S8192x1 .f32) (x4 : Vec Ideal S1x128 .f32)

/-- The zero offsets of a rank-two block, as a constant function. -/
private theorem hz : (![0, 0] : Fin 2 → Nat) = fun _ => 0 := funext fun a => by fin_cases a <;> rfl

/-- The kernel writes the negation as a subtraction from zero. -/
private theorem per_eq (o oc y : EReal) :
    ((cZero - (y * clog o + (cOne - y) * clog (cOne - o))) + (o - sharp o) * (o - sharp o)) + (oc - sharp o) * (oc - sharp o)
      = per o oc y := by
  unfold per
  rw [show (cZero : EReal) = 0 from Ideal.ofBits_zero_f32, zero_sub]

/-- The common tail of a chunk: a [2048,128] array P times the weight row broadcast over the rows, summed along the
    128 columns, times the row's mask, summed along the 2048 rows, read at the one index of the [1,1] result: the double
    sum ∑ r (∑ c P(r,c) w(c)) m(r). -/
private theorem tail_eq (P : FVec Ideal S2048x128 .f32) (v4 : FVec Ideal S1x128 .f32) (v16 : FVec Ideal S2048x1 .f32)
    (hb : S1x128.Broadcasts S2048x128) (h1 : S2048x128.Reduces [1] S2048) (hs1 : S2048.ShapeCasts S2048x1)
    (h0 : S2048x1.Reduces [0] S1) (hs0 : S1.ShapeCasts S1x1) (u v : Fin 1) :
    shapeCast S1x1 (multiReduction (F := Ideal) .add [0] S1
        (mulf (shapeCast S2048x1 (multiReduction (F := Ideal) .add [1] S2048 (mulf P (broadcastTo S2048x128 v4 hb))
          0x00000000#32 h1 (.inl rfl) rfl) hs1) v16) 0x00000000#32 h0 (.inl rfl) rfl) hs0 (ix2 u v)
      = ∑ r : Fin 2048, (∑ c : Fin 128, P (ix2 r c) * v4 (ix2 0 c)) * v16 (ix2 r 0) := by
  refine (shapeCast_a_1a_apply _ hs0 u v).trans ?_
  refine (Ideal.multiReduction_add_single _ _ h0 _ _ _).trans ?_
  refine Finset.sum_congr rfl fun r _ => ?_
  have e : h0.lift (ix1 v) r = ix2 r 0 := funext fun a => Fin.ext (by
    match a with
    | ⟨0, _⟩ => rfl
    | ⟨1, _⟩ => show v.val = 0; omega)
  rw [e]
  refine (mulf_apply _ _ _).trans ?_
  refine congrArg (· * v16 (ix2 r 0)) ?_
  refine (shapeCast_apply _ hs1 (ix2 r 0) (ix1 r) (by
    rw [Shape.rowMajor_val_two, Shape.rowMajor_val_one]; show r.val = r.val * 1 + 0; omega)).trans ?_
  refine (Ideal.multiReduction_add_single _ _ h1 _ _ _).trans ?_
  refine Finset.sum_congr rfl fun c _ => ?_
  have e' : h1.lift (ix1 r) c = ix2 r c := funext fun a => Fin.ext (by
    match a with
    | ⟨0, _⟩ => rfl
    | ⟨1, _⟩ => rfl)
  rw [e']
  refine (mulf_apply _ _ _).trans ?_
  exact congrArg (P (ix2 r c) * ·) (broadcastTo_1b_ab_apply v4 hb r c)

/-- The zero offsets of a rank-three block, as a constant function. -/
private theorem hz3 : (![0, 0, 0] : Fin 3 → Nat) = fun _ => 0 := funext fun a => by fin_cases a <;> rfl

/-- A [1,1] array has one index. -/
private theorem idx11 (j : S1x1.Idx) : j = ix2 0 0 := funext fun a => Fin.ext (by
  match a with
  | ⟨0, _⟩ => have : (j 0).val < 1 := (j 0).isLt; show (j 0).val = 0; omega
  | ⟨1, _⟩ => have : (j 1).val < 1 := (j 1).isLt; show (j 1).val = 0; omega)

/-- Chunk 0: the accumulator it starts from plus the chunk's double sum of the per-element loss. -/
private theorem chunk0 (v4 : FVec Ideal S1x128 .f32) (acc : FVec Ideal S1x1 .f32) (v9 v11 v13 : Vec Ideal S2048x128 .f32)
    (v16 : FVec Ideal S2048x1 .f32) :
    k0_pay10 (F := Ideal) v4 acc v9 v11 v13 v16 (k0_pay6 v9) (k0_pay7 v9) (k0_pay8 v9 v13) k0_pay9
      = fun _ => acc (ix2 0 0) + ∑ r : Fin 2048, (∑ c : Fin 128,
          per (v9 (ix2 r c)) (v11 (ix2 r c)) (v13 (ix2 r c)) * v4 (ix2 0 c)) * v16 (ix2 r 0) := by
  funext j
  rw [idx11 j]
  unfold k0_pay10
  dsimp only
  refine (addf_apply _ _ _).trans ?_
  refine congrArg (acc (ix2 0 0) + ·) ?_
  refine (tail_eq _ v4 v16 _ _ _ _ _ 0 0).trans ?_
  refine Finset.sum_congr rfl fun r _ => congrArg (· * v16 (ix2 r 0)) (Finset.sum_congr rfl fun c _ => congrArg (· * v4 (ix2 0 c)) ?_)
  exact per_eq (v9 (ix2 r c)) (v11 (ix2 r c)) (v13 (ix2 r c))

/-- Chunk 1, likewise. -/
private theorem chunk1 (v4 : FVec Ideal S1x128 .f32) (acc : FVec Ideal S1x1 .f32) (v60 v62 v64 : Vec Ideal S2048x128 .f32)
    (v67 : FVec Ideal S2048x1 .f32) :
    k0_pay15 (F := Ideal) v4 acc v60 v62 v64 v67 (k0_pay12 v60) (k0_pay13 v60) k0_pay14
      = fun _ => acc (ix2 0 0) + ∑ r : Fin 2048, (∑ c : Fin 128,
          per (v60 (ix2 r c)) (v62 (ix2 r c)) (v64 (ix2 r c)) * v4 (ix2 0 c)) * v67 (ix2 r 0) := by
  funext j
  rw [idx11 j]
  unfold k0_pay15
  dsimp only
  refine (addf_apply _ _ _).trans ?_
  refine congrArg (acc (ix2 0 0) + ·) ?_
  refine (tail_eq _ v4 v67 _ _ _ _ _ 0 0).trans ?_
  refine Finset.sum_congr rfl fun r _ => congrArg (· * v67 (ix2 r 0)) (Finset.sum_congr rfl fun c _ => congrArg (· * v4 (ix2 0 c)) ?_)
  exact per_eq (v60 (ix2 r c)) (v62 (ix2 r c)) (v64 (ix2 r c))

/-- Chunk 2, likewise. -/
private theorem chunk2 (v4 : FVec Ideal S1x128 .f32) (acc : FVec Ideal S1x1 .f32) (v111 v113 v115 : Vec Ideal S2048x128 .f32)
    (v118 : FVec Ideal S2048x1 .f32) :
    k0_pay20 (F := Ideal) v4 acc v111 v113 v115 v118 (k0_pay17 v111) (k0_pay18 v111) (k0_pay19 v111)
      = fun _ => acc (ix2 0 0) + ∑ r : Fin 2048, (∑ c : Fin 128,
          per (v111 (ix2 r c)) (v113 (ix2 r c)) (v115 (ix2 r c)) * v4 (ix2 0 c)) * v118 (ix2 r 0) := by
  funext j
  rw [idx11 j]
  unfold k0_pay20
  dsimp only
  refine (addf_apply _ _ _).trans ?_
  refine congrArg (acc (ix2 0 0) + ·) ?_
  refine (tail_eq _ v4 v118 _ _ _ _ _ 0 0).trans ?_
  refine Finset.sum_congr rfl fun r _ => congrArg (· * v118 (ix2 r 0)) (Finset.sum_congr rfl fun c _ => congrArg (· * v4 (ix2 0 c)) ?_)
  exact per_eq (v111 (ix2 r c)) (v113 (ix2 r c)) (v115 (ix2 r c))

/-- Chunk 3, likewise, and then the carried accumulator added in front of the chain of the four chunks. -/
private theorem chunk3 (v4 : FVec Ideal S1x128 .f32) (acc : FVec Ideal S1x1 .f32) (v162 v164 v166 : Vec Ideal S2048x128 .f32)
    (v169 : FVec Ideal S2048x1 .f32) (v210 : Vec Ideal S1x1 .f32) :
    k0_pay24 (F := Ideal) v4 acc v162 v164 v166 v169 (k0_pay22 v162) k0_pay23 v210
      = fun _ => v210 (ix2 0 0) + (acc (ix2 0 0) + ∑ r : Fin 2048, (∑ c : Fin 128,
          per (v162 (ix2 r c)) (v164 (ix2 r c)) (v166 (ix2 r c)) * v4 (ix2 0 c)) * v169 (ix2 r 0)) := by
  funext j
  rw [idx11 j]
  unfold k0_pay24
  dsimp only
  rw [shapeCast_self]
  refine (addf_apply _ _ _).trans ?_
  refine congrArg (v210 (ix2 0 0) + ·) ?_
  refine (addf_apply _ _ _).trans ?_
  refine congrArg (acc (ix2 0 0) + ·) ?_
  refine (tail_eq _ v4 v169 _ _ _ _ _ 0 0).trans ?_
  refine Finset.sum_congr rfl fun r _ => congrArg (· * v169 (ix2 r 0)) (Finset.sum_congr rfl fun c _ => congrArg (· * v4 (ix2 0 c)) ?_)
  exact per_eq (v162 (ix2 r c)) (v164 (ix2 r c)) (v166 (ix2 r c))

/-- A load of 2048 rows from row 2048 j of a block reads, at (r, c), the block at (2048 j + r, c). -/
private theorem ld_rows128 (X : Vec Ideal S8192x128 .f32) (j : Fin 4) (off : Fin 2 → Nat) (hoff : off = ![2048 * j.val, 0])
    (inb : ∀ a, off a + (![2048, 128] : Fin 2 → Nat) a ≤ S8192x128.size a) (r : Fin 2048) (c : Fin 128) :
    View.ld (Val := Elt Ideal) (e' := EltTy.f32) X (Rect.unit (s := S8192x128) off ![2048, 128] inb) (ix2 r c)
      = X (ix2 (chunkRow j r) c) := by
  subst hoff
  refine congrArg X (funext fun a => Fin.ext ?_)
  match a with
  | ⟨0, _⟩ => show 2048 * j.val + 1 * r.val = 2048 * j.val + r.val; omega
  | ⟨1, _⟩ => show 0 + 1 * c.val = c.val; omega

/-- The same for the one-column mask block. -/
private theorem ld_rows1 (X : Vec Ideal S8192x1 .f32) (j : Fin 4) (off : Fin 2 → Nat) (hoff : off = ![2048 * j.val, 0])
    (inb : ∀ a, off a + (![2048, 1] : Fin 2 → Nat) a ≤ S8192x1.size a) (r : Fin 2048) (c : Fin 1) :
    View.ld (Val := Elt Ideal) (e' := EltTy.f32) X (Rect.unit (s := S8192x1) off ![2048, 1] inb) (ix2 r c)
      = X (ix2 (chunkRow j r) c) := by
  subst hoff
  refine congrArg X (funext fun a => Fin.ext ?_)
  match a with
  | ⟨0, _⟩ => show 2048 * j.val + 1 * r.val = 2048 * j.val + r.val; omega
  | ⟨1, _⟩ => show 0 + 1 * c.val = c.val; omega

/-- So a chunk's sum over its loaded slices is the chunk's contribution. -/
private theorem chunkSum_eq (j : Fin 4) (o1 o2 : Fin 2 → Nat) (h1 : o1 = ![2048 * j.val, 0]) (h2 : o2 = ![2048 * j.val, 0])
    (inb1 : ∀ a, o1 a + (![2048, 128] : Fin 2 → Nat) a ≤ S8192x128.size a)
    (inb2 : ∀ a, o2 a + (![2048, 1] : Fin 2 → Nat) a ≤ S8192x1.size a) :
    (∑ r : Fin 2048, (∑ c : Fin 128,
        per (View.ld (Val := Elt Ideal) (e' := EltTy.f32) x0 (Rect.unit (s := S8192x128) o1 ![2048, 128] inb1) (ix2 r c))
          (View.ld (Val := Elt Ideal) (e' := EltTy.f32) x1 (Rect.unit (s := S8192x128) o1 ![2048, 128] inb1) (ix2 r c))
          (View.ld (Val := Elt Ideal) (e' := EltTy.f32) x2 (Rect.unit (s := S8192x128) o1 ![2048, 128] inb1) (ix2 r c))
          * x4 (ix2 0 c))
        * View.ld (Val := Elt Ideal) (e' := EltTy.f32) x3 (Rect.unit (s := S8192x1) o2 ![2048, 1] inb2) (ix2 r 0))
      = chunkLoss x0 x1 x2 x3 x4 j := by
  unfold chunkLoss
  refine Finset.sum_congr rfl fun r _ => ?_
  rw [ld_rows1 x3 j o2 h2 inb2 r 0]
  refine congrArg (· * x3 (ix2 (chunkRow j r) 0)) (Finset.sum_congr rfl fun c _ => ?_)
  rw [ld_rows128 x0 j o1 h1 inb1 r c, ld_rows128 x1 j o1 h1 inb1 r c, ld_rows128 x2 j o1 h1 inb1 r c]

/-- A core's first tile: the accumulator, reset to zero, plus the tile's loss. -/
theorem sout_A (hc0 : cond0_0 i) (hc1 : ¬cond0_1 i) :
    sout0_A_0 (F := Ideal) c i arg2 harg2 arg3 harg3 arg4 harg4 arg5 harg5 arg6 harg6 arg7 harg7 arg8 harg8 hc0 hc1 x0 x1 x2 x3 x4 = fun _ => cZero + tileLoss x0 x1 x2 x3 x4 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x1) hz]
  simp only [View.readAt_eq_ld, harg2.read_unread, harg3.read_unread, harg4.read_unread, harg5.read_unread,
    harg6.read_unread, harg8.read_unread, View.ld_unit_zero (S := S1x128) hz, View.ld_unit_zero (S := S1x1) hz,
    View.readCov_unit_zero (S := S1x1) _ hz]
  unfold k0_pay3 k0_pay5 k0_pay11 k0_pay16 k0_pay21
  simp only [shapeCast_self]
  rw [chunk3, chunk2, chunk1, chunk0]
  funext _
  dsimp only
  refine congrArg₂ (· + ·) rfl ?_
  unfold tileLoss
  refine congrArg₂ (· + ·) (congrArg₂ (· + ·) (congrArg₂ (· + ·) (congrArg₂ (· + ·) rfl ?_) ?_) ?_) ?_
  · exact chunkSum_eq x0 x1 x2 x3 x4 0 ![0, 0] ![0, 0] rfl rfl _ _
  · exact chunkSum_eq x0 x1 x2 x3 x4 1 ![2048, 0] ![2048, 0] rfl rfl _ _
  · exact chunkSum_eq x0 x1 x2 x3 x4 2 ![4096, 0] ![4096, 0] rfl rfl _ _
  · exact chunkSum_eq x0 x1 x2 x3 x4 3 ![6144, 0] ![6144, 0] rfl rfl _ _

/-- A middle tile: the accumulator as the tile before left it, plus the tile's loss. -/
theorem sout_B (hc0 : ¬cond0_0 i) (hc1 : ¬cond0_1 i) (xs0 : Vec Ideal S1x1 .f32) :
    sout0_B_0 (F := Ideal) c i arg2 harg2 arg3 harg3 arg4 harg4 arg5 harg5 arg6 harg6 arg7 harg7 arg8 harg8 hc0 hc1 x0 x1 x2 x3 x4 xs0
      = fun _ => xs0 (ix2 0 0) + tileLoss x0 x1 x2 x3 x4 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz]
  simp only [View.readAt_eq_ld, harg2.read_unread, harg3.read_unread, harg4.read_unread, harg5.read_unread,
    harg6.read_unread, harg8.read_unread, View.ld_unit_zero (S := S1x128) hz, View.ld_unit_zero (S := S1x1) hz]
  unfold k0_pay3 k0_pay5 k0_pay11 k0_pay16 k0_pay21
  simp only [shapeCast_self]
  rw [chunk3, chunk2, chunk1, chunk0]
  funext _
  dsimp only
  refine congrArg₂ (· + ·) rfl ?_
  unfold tileLoss
  refine congrArg₂ (· + ·) (congrArg₂ (· + ·) (congrArg₂ (· + ·) (congrArg₂ (· + ·) rfl ?_) ?_) ?_) ?_
  · exact chunkSum_eq x0 x1 x2 x3 x4 0 ![0, 0] ![0, 0] rfl rfl _ _
  · exact chunkSum_eq x0 x1 x2 x3 x4 1 ![2048, 0] ![2048, 0] rfl rfl _ _
  · exact chunkSum_eq x0 x1 x2 x3 x4 2 ![4096, 0] ![4096, 0] rfl rfl _ _
  · exact chunkSum_eq x0 x1 x2 x3 x4 3 ![6144, 0] ![6144, 0] rfl rfl _ _

/-- A core's last tile, the accumulator: as a middle tile's. -/
theorem sout_C (hc0 : ¬cond0_0 i) (hc1 : cond0_1 i) (xs0 : Vec Ideal S1x1 .f32) :
    sout0_C_0 (F := Ideal) c i arg2 harg2 arg3 harg3 arg4 harg4 arg5 harg5 arg6 harg6 arg7 harg7 arg8 harg8 hc0 hc1 x0 x1 x2 x3 x4 xs0
      = fun _ => xs0 (ix2 0 0) + tileLoss x0 x1 x2 x3 x4 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread,
    harg6.read_unread, harg8.read_unread, View.ld_unit_zero (S := S1x128) hz, View.ld_unit_zero (S := S1x1) hz]
  unfold k0_pay3 k0_pay5 k0_pay11 k0_pay16 k0_pay21
  simp only [shapeCast_self]
  rw [chunk3, chunk2, chunk1, chunk0]
  funext _
  dsimp only
  refine congrArg₂ (· + ·) rfl ?_
  unfold tileLoss
  refine congrArg₂ (· + ·) (congrArg₂ (· + ·) (congrArg₂ (· + ·) (congrArg₂ (· + ·) rfl ?_) ?_) ?_) ?_
  · exact chunkSum_eq x0 x1 x2 x3 x4 0 ![0, 0] ![0, 0] rfl rfl _ _
  · exact chunkSum_eq x0 x1 x2 x3 x4 1 ![2048, 0] ![2048, 0] rfl rfl _ _
  · exact chunkSum_eq x0 x1 x2 x3 x4 2 ![4096, 0] ![4096, 0] rfl rfl _ _
  · exact chunkSum_eq x0 x1 x2 x3 x4 3 ![6144, 0] ![6144, 0] rfl rfl _ _

/-- A core's last tile, the output block: the new accumulator. -/
theorem out_C (hc0 : ¬cond0_0 i) (hc1 : cond0_1 i) (xs0 : Vec Ideal S1x1 .f32) :
    out0_C_5 (F := Ideal) c i arg2 harg2 arg3 harg3 arg4 harg4 arg5 harg5 arg6 harg6 arg7 harg7 arg8 harg8 hc0 hc1 x0 x1 x2 x3 x4 xs0
      = fun _ => xs0 (ix2 0 0) + tileLoss x0 x1 x2 x3 x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz3]
  simp only [View.readAt_eq_ld, harg2.read_unread, harg3.read_unread, harg4.read_unread, harg5.read_unread,
    harg6.read_unread, harg8.read_unread, View.ld_unit_zero (S := S1x128) hz, View.ld_unit_zero (S := S1x1) hz,
    View.readCov_unit_zero (S := S1x1) _ hz]
  unfold k0_pay1 k0_pay3 k0_pay5 k0_pay11 k0_pay16 k0_pay21
  simp only [shapeCast_self]
  rw [chunk3, chunk2, chunk1, chunk0]
  funext _
  unfold shapeCast
  dsimp only
  refine congrArg₂ (· + ·) rfl ?_
  unfold tileLoss
  refine congrArg₂ (· + ·) (congrArg₂ (· + ·) (congrArg₂ (· + ·) (congrArg₂ (· + ·) rfl ?_) ?_) ?_) ?_
  · exact chunkSum_eq x0 x1 x2 x3 x4 0 ![0, 0] ![0, 0] rfl rfl _ _
  · exact chunkSum_eq x0 x1 x2 x3 x4 1 ![2048, 0] ![2048, 0] rfl rfl _ _
  · exact chunkSum_eq x0 x1 x2 x3 x4 2 ![4096, 0] ![4096, 0] rfl rfl _ _
  · exact chunkSum_eq x0 x1 x2 x3 x4 3 ![6144, 0] ![6144, 0] rfl rfl _ _

end Cert.KernelIdeal.Tile

end
-- ==== Proof.ScatterWeight.lean ====
/-
  The kernel's column weights. A scatter-add of 64 updates into a 128-vector, every scatter index a column number
  below 128 when read as a signed integer, leaves at column c the operand's element plus the sum of the updates whose
  index names c: no update falls outside the operand, so none is dropped.
-/
import proofs.«406414_j7834020348691_3_alg».proof.Proof.Spec
import proofs.«406414_j7834020348691_3_alg».proof.KernelIdeal

noncomputable section

namespace Cert.KernelIdeal.Cols

open Idealize.ShloMosaic Idealize.ShloMosaic.ValueIdx Cert.KernelIdeal

variable [Cert.KernelIdeal.Facts₀]

/-- Every update lands inside the operand, at the column its index word names. -/
private theorem resultIdx_eq (iv : IVec S64x1 32) (colf : Fin 64 → Fin 128)
    (h : ∀ k : Fin 64, (iv (ix2 k 0)).toInt = ((colf k).val : ℤ)) (k : Fin 64) :
    scatter_S128_S64x1_S64_n_0_0_1.resultIdx? (ix1 k) iv = some (ix1 (colf k)) := by
  -- the start on the one operand axis is the index word of update k, read signed
  have hsi : scatter_S128_S64x1_S64_n_0_0_1.siIdx (ix1 k)
      ⟨List.idxOf (0 : Fin 1) scatter_S128_S64x1_S64_n_0_0_1.scatterDimsToOperandDims,
        List.idxOf_lt_length_iff.2 (List.mem_singleton.mpr rfl)⟩ = ix2 k 0 := by
    funext c; refine Fin.ext ?_
    match c with
    | ⟨0, _⟩ => rfl
    | ⟨1, _⟩ => rfl
  have hs : ∀ a : Fin 1, scatter_S128_S64x1_S64_n_0_0_1.start (ix1 k) iv a = ((colf k).val : ℤ) := by
    intro a
    obtain rfl : a = 0 := Subsingleton.elim _ _
    unfold ScatterDims.start
    refine (dif_pos (show (0 : Fin 1) ∈ ([0] : List (Fin 1)) by decide)).trans ?_
    rw [hsi]
    exact h k
  -- the operand's one axis is an inserted window axis: no window coordinate
  have hw : ∀ a : Fin 1, scatter_S128_S64x1_S64_n_0_0_1.window (ix1 k) a = 0 := by
    intro a
    obtain rfl : a = 0 := Subsingleton.elim _ _
    exact dif_neg (show (0 : Fin 1) ∉ ([] : List (Fin 1)) by decide)
  have hlt := (colf k).isLt
  unfold ScatterDims.resultIdx?
  rw [dif_pos]
  · congr 1
    funext a
    refine Fin.ext ?_
    obtain rfl : a = 0 := Subsingleton.elim _ _
    show (scatter_S128_S64x1_S64_n_0_0_1.start (ix1 k) iv 0
      + (scatter_S128_S64x1_S64_n_0_0_1.window (ix1 k) 0 : ℤ)).toNat = (colf k).val
    rw [hs 0, hw 0]
    omega
  · intro a
    obtain rfl : a = 0 := Subsingleton.elim _ _
    rw [hs 0, hw 0]
    show (0 : ℤ) ≤ ((colf k).val : ℤ) + ((0 : ℕ) : ℤ) ∧ ((colf k).val : ℤ) + ((0 : ℕ) : ℤ) < ((128 : ℕ) : ℤ)
    omega

/-- The accumulating scatter at in-range indices: each column gets the updates that name it. -/
theorem scatter_weight (iv : IVec S64x1 32) (colf : Fin 64 → Fin 128)
    (h : ∀ k : Fin 64, (iv (ix2 k 0)).toInt = ((colf k).val : ℤ))
    (x : FVec Ideal S128 .f32) (u : FVec Ideal S64 .f32) (c : Fin 128) :
    Host.scatterAdd (F := Ideal) scatter_S128_S64x1_S64_n_0_0_1 x iv u (ix1 c)
      = x (ix1 c) + ∑ k ∈ Finset.univ.filter (fun k : Fin 64 => colf k = c), u (ix1 k) := by
  -- an update's landing place, compared with column c
  have key : ∀ k : Fin 64,
      scatter_S128_S64x1_S64_n_0_0_1.resultIdx? (ix1 k) iv = some (ix1 c) ↔ colf k = c := by
    intro k
    rw [resultIdx_eq iv colf h k]
    constructor
    · intro e; exact congrFun (Option.some.inj e) 0
    · rintro rfl; rfl
  show Ideal.hostScatterAdd scatter_S128_S64x1_S64_n_0_0_1 x iv u (ix1 c) = _
  unfold Ideal.hostScatterAdd
  congr 1
  -- the updates' indices are the numbers below 64
  refine Finset.sum_nbij' (fun j : S64.Idx => (j 0 : Fin 64)) (fun k : Fin 64 => (ix1 k : S64.Idx)) ?_ ?_ ?_ ?_ ?_
  · intro j hj
    have hj2 := (Finset.mem_filter.1 hj).2
    rw [eq_ix1 j] at hj2
    exact Finset.mem_filter.2 ⟨Finset.mem_univ _, (key _).1 hj2⟩
  · intro k hk
    exact Finset.mem_filter.2 ⟨Finset.mem_univ _, (key k).2 (Finset.mem_filter.1 hk).2⟩
  · intro j _
    exact (eq_ix1 j).symm
  · intro k _
    rfl
  · intro j _
    exact congrArg u (eq_ix1 j)

end Cert.KernelIdeal.Cols

end
-- ==== Proof.IndexWrap.lean ====
/-
  Index words. An index word in [-128, 128), wrapped as both programs wrap it (128 added to a negative word), reads, as
  a signed integer, as the column it names; and the precondition's two added conjuncts say exactly that every index
  word lies in that range.
-/
import proofs.«406414_j7834020348691_3_alg».proof.Proof.Spec
import proofs.«406414_j7834020348691_3_alg».proof.Pre_finite_inputs
import Idealize.ShloMosaic.Lib.ReduceAll
import Idealize.ShloMosaic.Lib.StableHlo.Predicate

noncomputable section

namespace Cert.SemiLoss

open Idealize.ShloMosaic Idealize.ShloMosaic.ValueIdx

/-- A word in [-128, 128), wrapped, is non-negative and below 128: it is the column the word names. -/
theorem wrapWord_toInt (v : BitVec 32) (h0 : -128 ≤ v.toInt) (h1 : v.toInt < 128) :
    (wrapWord v).toInt = ((colOf v).val : ℤ) := by
  have hz : (0#32 : BitVec 32).toInt = 0 := by decide
  have hk : (128#32 : BitVec 32).toInt = 128 := by decide
  unfold wrapWord colOf
  by_cases hneg : v.toInt < 0
  · -- a negative word: the comparison holds, 128 is added, and the sum does not leave [0, 128)
    have hc : IntOp.cmpi .slt v 0#32 = 1 := IntOp.cmpi_slt.2 (by rw [hz]; exact hneg)
    have hsum : (IntOp.addi v 128#32).toInt = v.toInt + 128 := by
      show (v + 128#32).toInt = _
      rw [BitVec.toInt_add, hk]
      exact Int.bmod_eq_of_le (by omega) (by omega)
    rw [Scalar.select, if_pos hc, hsum]
    show v.toInt + 128 = (((if v.toInt < 0 then v.toInt + 128 else v.toInt).toNat % 128 : ℕ) : ℤ)
    rw [if_pos hneg]
    omega
  · -- a non-negative word is kept, and it is already below 128
    have hc : ¬ IntOp.cmpi .slt v 0#32 = 1 := fun e => hneg (by have := IntOp.cmpi_slt.1 e; rwa [hz] at this)
    rw [Scalar.select, if_neg hc]
    show v.toInt = (((if v.toInt < 0 then v.toInt + 128 else v.toInt).toNat % 128 : ℕ) : ℤ)
    rw [if_neg hneg]
    omega

/-- The precondition holds only of index words in [-128, 128). -/
theorem inRange_of_pre {F : FTy → Type} [FloatOps F] [Cert.Pre_finite_inputs.Facts]
    (x0 x1 x2 : FVec F Cert.Pre_finite_inputs.S131072x128 .f32) (x3 : IVec Cert.Pre_finite_inputs.S64 32)
    (x4 : IVec Cert.Pre_finite_inputs.S131072 1)
    (h : Cert.Pre_finite_inputs.fn (F := F) x0 x1 x2 x3 x4 = fun _ => 1#1) : InRange x3 := by
  -- the result array has a single index
  haveI : Subsingleton Cert.Pre_finite_inputs.S_.Idx := ⟨fun a b => funext fun d => d.elim0⟩
  have e := congrFun h ix0
  unfold Cert.Pre_finite_inputs.fn Cert.Pre_finite_inputs.fn_part1 at e
  dsimp only at e
  -- the conjunction is ((floats ∧ all (-128 ≤ word)) ∧ all (word < 128))
  obtain ⟨e', hlt⟩ := IntOp.andi_eq_one.1 e
  obtain ⟨-, hge⟩ := IntOp.andi_eq_one.1 e'
  intro k
  have hlo : (4294967168#32 : BitVec 32).toInt = -128 := by decide
  have hhi : (128#32 : BitVec 32).toInt = 128 := by decide
  -- each "all" read at word k: a signed comparison of the word against the broadcast literal
  have g := IntOp.cmpi_sge.1 (Host.reduce_andi_all _ _ _ _ _ hge (ix1 k))
  have l := IntOp.cmpi_slt.1 (Host.reduce_andi_all _ _ _ _ _ hlt (ix1 k))
  change (4294967168#32 : BitVec 32).toInt ≤ (x3 (ix1 k)).toInt at g
  change (x3 (ix1 k)).toInt < (128#32 : BitVec 32).toInt at l
  rw [hlo] at g
  rw [hhi] at l
  exact ⟨g, l⟩

end Cert.SemiLoss

end
-- ==== Proof.Algebra.lean ====
/-
  The algebra that joins the two arrangements, on the extended reals.
  (1) A column's weight is a natural number n (zero plus n ones), and x * n is x added n times: the product of an
      extended real with a sum of non-negative terms distributes. So the loss at a column times its weight is the sum,
      over the index words naming that column, of the loss there; and summing over the columns, fibre by fibre, is
      summing over the 64 index words.
  (2) A mask is 0 or 1, and multiplying a finite sum by 0 or by 1 multiplies each term.
  (3) The 131072 rows are the 16 tiles of 4 chunks of 2048 rows.
  No finiteness of the float inputs is used anywhere.
-/
import proofs.«406414_j7834020348691_3_alg».proof.Proof.Spec
import Mathlib.Data.EReal.Operations
import Mathlib.Algebra.BigOperators.Group.Finset.Basic
import Mathlib.Algebra.BigOperators.Fin
import Mathlib.Logic.Equiv.Fin.Basic

noncomputable section

namespace Cert.SemiLoss

open Idealize.ShloMosaic Idealize.ShloMosaic.ValueIdx

/-- The word 0x3F800000 is the number one. -/
theorem cOne_eq : cOne = 1 := by
  simp [cOne, Ideal.ofBits, Ideal.ieee, -EReal.coe_mul]
  norm_num

/-- The word 0x00000000 is the number zero. -/
theorem cZero_eq : cZero = 0 := Ideal.ofBits_zero_f32

/-- x times a sum of ones over a finite set is x added once per element: each partial sum of ones is non-negative, so
    the product distributes over the next one. -/
theorem mul_sum_ones {ι : Type} [DecidableEq ι] (x : EReal) (s : Finset ι) :
    x * (∑ _k ∈ s, (1 : EReal)) = ∑ _k ∈ s, x := by
  induction s using Finset.induction_on with
  | empty => simp
  | insert a s ha ih =>
    rw [Finset.sum_insert ha, Finset.sum_insert ha,
      EReal.left_distrib_of_nonneg zero_le_one (Finset.sum_nonneg fun _ _ => zero_le_one), mul_one, ih]

/-- A mask is zero or one. -/
theorem maskOf_cases (x4 : IVec ⟨1, ![131072]⟩ 1) (b : Fin 131072) : maskOf x4 b = 0 ∨ maskOf x4 b = 1 := by
  unfold maskOf
  rcases (by decide : ∀ w : BitVec 1, w = 0#1 ∨ w = 1#1) (x4 (ix1 b)) with h | h
  · left; rw [h]; show (((0#1 : BitVec 1).toNat : ℝ) : EReal) = 0; simp
  · right; rw [h]; show (((1#1 : BitVec 1).toNat : ℝ) : EReal) = 1; simp

/-- Zero or one passes through a finite sum. -/
theorem sum_mul_mask {ι : Type} (s : Finset ι) (a : ι → EReal) (μ : EReal) (hμ : μ = 0 ∨ μ = 1) :
    (∑ k ∈ s, a k) * μ = ∑ k ∈ s, a k * μ := by
  rcases hμ with rfl | rfl
  · simp
  · simp

variable (O OC Y : FVec Ideal ⟨2, ![131072, 128]⟩ .f32) (x3 : IVec ⟨1, ![64]⟩ 32) (x4 : IVec ⟨1, ![131072]⟩ 1)

/-- The weighted sum over all columns is the plain sum over the named columns. -/
theorem weighted_eq_gathered (g : Fin 128 → EReal) :
    ∑ c : Fin 128, g c * weight x3 c = ∑ k : Fin 64, g (col x3 k) := by
  have hw : ∀ c : Fin 128, g c * weight x3 c = ∑ _k ∈ Finset.univ.filter (fun k : Fin 64 => col x3 k = c), g c := by
    intro c
    unfold weight
    rw [cZero_eq, zero_add, cOne_eq, mul_sum_ones]
  simp only [hw]
  exact Finset.sum_fiberwise' Finset.univ (col x3) g

/-- A row's loss in the kernel's arrangement is its loss in the reference's. -/
theorem rowLoss_eq (b : Fin 131072) : rowLossW O OC Y x3 x4 b = rowLossG O OC Y x3 x4 b := by
  unfold rowLossW rowLossG
  rw [weighted_eq_gathered x3 (lossAt O OC Y b), sum_mul_mask _ _ _ (maskOf_cases x4 b)]

/-- So the two results are one extended real. -/
theorem result_eq : result O OC Y x3 x4 = resultG O OC Y x3 x4 := by
  unfold result resultG total totalG
  simp only [rowLoss_eq]

/-- Row (t, j, r): row r of chunk j of tile t. -/
def rowOf (t : Fin 16) (j : Fin 4) (r : Fin 2048) : Fin 131072 := ⟨8192 * t.val + 2048 * j.val + r.val, by omega⟩

/-- The rows, tile by tile and chunk by chunk. -/
theorem sum_rows (f : Fin 131072 → EReal) :
    ∑ b : Fin 131072, f b = ∑ t : Fin 16, ∑ j : Fin 4, ∑ r : Fin 2048, f (rowOf t j r) := by
  have e1 : ∑ b : Fin 131072, f b = ∑ p : Fin 16 × Fin 8192, f (finProdFinEquiv p) :=
    (Equiv.sum_comp (finProdFinEquiv (m := 16) (n := 8192)) f).symm
  rw [e1, Fintype.sum_prod_type]
  refine Finset.sum_congr rfl fun t _ => ?_
  have e2 : ∑ q : Fin 8192, f (finProdFinEquiv (t, q))
      = ∑ p : Fin 4 × Fin 2048, f (finProdFinEquiv (t, finProdFinEquiv p)) :=
    (Equiv.sum_comp (finProdFinEquiv (m := 4) (n := 2048)) fun q => f (finProdFinEquiv (t, q))).symm
  rw [e2, Fintype.sum_prod_type]
  refine Finset.sum_congr rfl fun j _ => Finset.sum_congr rfl fun r _ => congrArg f (Fin.ext ?_)
  simp only [finProdFinEquiv_apply_val, rowOf]
  omega

/-! ## A tile of blocks that read as rows of the arrays -/

section Tile

variable (B0 B1 B2 : FVec Ideal ⟨2, ![8192, 128]⟩ .f32) (BM : FVec Ideal ⟨2, ![8192, 1]⟩ .f32)
  (BW : FVec Ideal ⟨2, ![1, 128]⟩ .f32) (T : Fin 16)

/-- If row p of each block is row 8192 T + p of its array, the mask block holds the masks of those rows and the weight
    block the column weights, then chunk j of the tile is the loss of its 2048 rows. -/
theorem chunk_eq_of
    (h0 : ∀ (p : Fin 8192) (q : Fin 128) (b : Fin 131072), b.val = 8192 * T.val + p.val → B0 (ix2 p q) = O (ix2 b q))
    (h1 : ∀ (p : Fin 8192) (q : Fin 128) (b : Fin 131072), b.val = 8192 * T.val + p.val → B1 (ix2 p q) = OC (ix2 b q))
    (h2 : ∀ (p : Fin 8192) (q : Fin 128) (b : Fin 131072), b.val = 8192 * T.val + p.val → B2 (ix2 p q) = Y (ix2 b q))
    (h3 : ∀ (p : Fin 8192) (b : Fin 131072), b.val = 8192 * T.val + p.val → BM (ix2 p 0) = maskOf x4 b)
    (h4 : ∀ q : Fin 128, BW (ix2 0 q) = weight x3 q) (j : Fin 4) :
    chunkLoss B0 B1 B2 BM BW j = ∑ r : Fin 2048, rowLossW O OC Y x3 x4 (rowOf T j r) := by
  unfold chunkLoss rowLossW lossAt
  refine Finset.sum_congr rfl fun r _ => ?_
  have hb : (rowOf T j r).val = 8192 * T.val + (chunkRow j r).val := by
    show 8192 * T.val + 2048 * j.val + r.val = 8192 * T.val + (2048 * j.val + r.val)
    omega
  rw [h3 (chunkRow j r) _ hb]
  refine congrArg (· * maskOf x4 (rowOf T j r)) (Finset.sum_congr rfl fun q _ => ?_)
  rw [h0 (chunkRow j r) q _ hb, h1 (chunkRow j r) q _ hb, h2 (chunkRow j r) q _ hb, h4 q]

/-- And the tile is the loss of its 8192 rows, chunk by chunk. -/
theorem tile_eq_of
    (h0 : ∀ (p : Fin 8192) (q : Fin 128) (b : Fin 131072), b.val = 8192 * T.val + p.val → B0 (ix2 p q) = O (ix2 b q))
    (h1 : ∀ (p : Fin 8192) (q : Fin 128) (b : Fin 131072), b.val = 8192 * T.val + p.val → B1 (ix2 p q) = OC (ix2 b q))
    (h2 : ∀ (p : Fin 8192) (q : Fin 128) (b : Fin 131072), b.val = 8192 * T.val + p.val → B2 (ix2 p q) = Y (ix2 b q))
    (h3 : ∀ (p : Fin 8192) (b : Fin 131072), b.val = 8192 * T.val + p.val → BM (ix2 p 0) = maskOf x4 b)
    (h4 : ∀ q : Fin 128, BW (ix2 0 q) = weight x3 q) :
    tileLoss B0 B1 B2 BM BW = ∑ j : Fin 4, ∑ r : Fin 2048, rowLossW O OC Y x3 x4 (rowOf T j r) := by
  unfold tileLoss
  rw [chunk_eq_of O OC Y x3 x4 B0 B1 B2 BM BW T h0 h1 h2 h3 h4 0, chunk_eq_of O OC Y x3 x4 B0 B1 B2 BM BW T h0 h1 h2 h3 h4 1,
    chunk_eq_of O OC Y x3 x4 B0 B1 B2 BM BW T h0 h1 h2 h3 h4 2, chunk_eq_of O OC Y x3 x4 B0 B1 B2 BM BW T h0 h1 h2 h3 h4 3,
    cZero_eq, zero_add, Fin.sum_univ_four]

end Tile

end Cert.SemiLoss

end
-- ==== Proof.KerValue.lean ====
/-
  The kernel's result. Per core, the accumulator after each tile is the sum of the tiles' losses so far (induction on
  the grid point); the output array's entry for a core is the accumulator after its eighth tile; the lines after the
  kernel add the two entries from zero and divide by 64 times the number of masked rows.
-/
import proofs.«406414_j7834020348691_3_alg».proof.Proof.KerPieces
import proofs.«406414_j7834020348691_3_alg».proof.Proof.ScatterWeight
import proofs.«406414_j7834020348691_3_alg».proof.Proof.IndexWrap
import proofs.«406414_j7834020348691_3_alg».proof.Proof.Algebra
import Idealize.ShloMosaic.Lib.StableHlo.Run
import Idealize.ShloMosaic.Lib.Pipeline.Value
import Idealize.ShloMosaic.Lib.ValueLayout

noncomputable section

namespace Cert.SemiLoss

open Idealize.ShloMosaic

/-- A host quotient of two scalar arrays, the divisor scaled by 64, read at its one index. -/
theorem div_tail {S : Shape} (X Yv : FVec Ideal S .f32) (i : S.Idx) (T C : EReal) (hT : X i = cZero + T) (hC : Yv i = C) :
    Host.divf X (mulf Yv (constant (F := Ideal) S .f32 0x42800000#32)) i = Ideal.div (cZero + T) (C * c64) := by
  show Ideal.div (X i) (Yv i * c64) = Ideal.div (cZero + T) (C * c64)
  rw [hT, hC]

end Cert.SemiLoss

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.SemiLoss

variable (m : (ℓ : Loc nD τ sig) → Buf (Elt Ideal) ℓ) (ρ : Dev nD → PrngReg)

/-! ## The argument arrays, by name -/

/-- "output", "output_consistency", "label": the three [131072, 128] arrays. -/
abbrev A0 (c : Dev nD) : FVec Ideal S131072x128 .f32 := m ((c.tc : Thread nD τ).loc main_arg0)
abbrev A1 (c : Dev nD) : FVec Ideal S131072x128 .f32 := m ((c.tc : Thread nD τ).loc main_arg1)
abbrev A2 (c : Dev nD) : FVec Ideal S131072x128 .f32 := m ((c.tc : Thread nD τ).loc main_arg2)
/-- The 64 index words. -/
abbrev A3 (c : Dev nD) : IVec S64 32 := m ((c.tc : Thread nD τ).loc main_arg3)
/-- The row mask. -/
abbrev A4 (c : Dev nD) : IVec S131072 1 := m ((c.tc : Thread nD τ).loc main_arg4)

/-! ## What the host computes before the kernel: the column weights and the mask column -/

/-- The wrapped index words, laid out as the scatter's [64, 1] index array. -/
abbrev wrapped (c : Dev nD) : IVec S64x1 32 :=
  broadcastInDim S64x1 ![0] bcast_S64_S64x1_0
    (select (cmpi .slt (A3 m c) (broadcastInDim S64 ![] bcast_S_S64 (constantI S_ 32 0#32)))
      (addi (A3 m c) (broadcastInDim S64 ![] bcast_S_S64 (constantI S_ 32 128#32))) (A3 m c))

/-- Its k-th word, read as a signed integer, is the column the k-th index word names. -/
theorem wrapped_toInt (c : Dev nD) (hin : InRange (A3 m c)) (k : Fin 64) :
    ((wrapped m c) (ix2 k 0)).toInt = ((col (A3 m c) k).val : ℤ) := by
  have e : (wrapped m c) (ix2 k 0) = wrapWord (A3 m c (ix1 k)) := by
    unfold wrapped
    rw [broadcastInDim_apply _ _ _ (ix2 k 0) (ix1 k) (fun a => by match a with | ⟨0, _⟩ => rfl)]
    rfl
  rw [e]
  exact wrapWord_toInt _ (hin k).1 (hin k).2

/-- The weight row the kernel is handed: at column q, the weight of q. -/
theorem weight_read (c : Dev nD) (hin : InRange (A3 m c)) (q : Fin 128) :
    (V m c main_v9 : S1x128.Idx → EReal) (ix2 0 q) = weight (A3 m c) q := by
  have e : (V m c main_v9 : S1x128.Idx → EReal)
      = shapeCast S1x128 (Host.scatterAdd (F := Ideal) scatter_S128_S64x1_S64_n_0_0_1
          (broadcastInDim S128 ![] bcast_S_S128 (constant (F := Ideal) S_ .f32 0x00000000#32)) (wrapped m c)
          (broadcastInDim S64 ![] bcast_S_S64 (constant (F := Ideal) S_ .f32 0x3F800000#32))) shapeCasts_S128_S1x128 := by
    show StableHlo.after hostOps0 (fun b => m (c, b)) (Proc.devRef .tc main_v9) = _
    after_results
    rfl
  rw [e, shapeCast_a_1a_apply, Cert.KernelIdeal.Cols.scatter_weight _ (col (A3 m c)) (wrapped_toInt m c hin)]
  rfl

/-- The mask column the kernel is handed: at row b, the mask of b. -/
theorem mask_read (c : Dev nD) (b : Fin 131072) :
    (V m c main_v11 : S131072x1.Idx → EReal) (ix2 b 0) = maskOf (A4 m c) b := by
  have e : (V m c main_v11 : S131072x1.Idx → EReal)
      = shapeCast S131072x1 (uitofp (F := Ideal) .f32 (A4 m c)) shapeCasts_S131072_S131072x1 := by
    show StableHlo.after hostOps0 (fun b => m (c, b)) (Proc.devRef .tc main_v11) = _
    after_results
    rfl
  rw [e, shapeCast_apply _ _ (ix2 b 0) (ix1 b) (by
    rw [Shape.rowMajor_val_two, Shape.rowMajor_val_one]
    show b.val = b.val * 1 + 0
    omega)]
  rfl

/-! ## A tile's blocks, read off the arrays -/

theorem N16 : cfg0.N = 16 := N_0

/-- The index maps over the grid: the three input windows and the mask window take block t at point t; the weight
    window always takes its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

/-- The blocks of point t, at their literal shapes. -/
abbrev b0 (c : Dev nD) (t : Fin cfg0.N) : Vec Ideal S8192x128 .f32 := iblk m c 0 t
abbrev b1 (c : Dev nD) (t : Fin cfg0.N) : Vec Ideal S8192x128 .f32 := iblk m c 1 t
abbrev b2 (c : Dev nD) (t : Fin cfg0.N) : Vec Ideal S8192x128 .f32 := iblk m c 2 t
abbrev b3 (c : Dev nD) (t : Fin cfg0.N) : Vec Ideal S8192x1 .f32 := iblk m c 3 t
abbrev b4 (c : Dev nD) (t : Fin cfg0.N) : Vec Ideal S1x128 .f32 := iblk m c 4 t

/-- Row p of block t of "output" is row 8192 t + p of the array. -/
theorem b0_read (c : Dev nD) (t : Fin cfg0.N) (p : Fin 8192) (q : Fin 128) (b : Fin 131072)
    (hb : b.val = 8192 * t.val + p.val) : b0 m c t (ix2 p q) = A0 m c (ix2 b q) := by
  obtain ⟨h0, h1, -⟩ := idx_facts t
  show ((cfg0.win 0).blk t).view.read (Elt Ideal) (V m c (Pipeline.arrRef spec0 0)) (ix2 p q) = _
  rw [View.read_apply]
  show V m c main_arg0 _ = _
  rw [V_main_arg0 m c]
  refine congrArg (m ((c.tc : Thread nD τ).loc main_arg0)) (funext fun a => Fin.ext ?_)
  match a with
  | ⟨0, _⟩ => show win0_0.index t (0 : Fin 2) * 8192 + 1 * p.val = b.val; rw [h0, hb]; omega
  | ⟨1, _⟩ => show win0_0.index t (1 : Fin 2) * 128 + 1 * q.val = q.val; rw [h1]; omega

/-- Row p of block t of "output_consistency". -/
theorem b1_read (c : Dev nD) (t : Fin cfg0.N) (p : Fin 8192) (q : Fin 128) (b : Fin 131072)
    (hb : b.val = 8192 * t.val + p.val) : b1 m c t (ix2 p q) = A1 m c (ix2 b q) := by
  obtain ⟨-, -, h0, h1, -⟩ := idx_facts t
  show ((cfg0.win 1).blk t).view.read (Elt Ideal) (V m c (Pipeline.arrRef spec0 1)) (ix2 p q) = _
  rw [View.read_apply]
  show V m c main_arg1 _ = _
  rw [V_main_arg1 m c]
  refine congrArg (m ((c.tc : Thread nD τ).loc main_arg1)) (funext fun a => Fin.ext ?_)
  match a with
  | ⟨0, _⟩ => show win0_1.index t (0 : Fin 2) * 8192 + 1 * p.val = b.val; rw [h0, hb]; omega
  | ⟨1, _⟩ => show win0_1.index t (1 : Fin 2) * 128 + 1 * q.val = q.val; rw [h1]; omega

/-- Row p of block t of "label". -/
theorem b2_read (c : Dev nD) (t : Fin cfg0.N) (p : Fin 8192) (q : Fin 128) (b : Fin 131072)
    (hb : b.val = 8192 * t.val + p.val) : b2 m c t (ix2 p q) = A2 m c (ix2 b q) := by
  obtain ⟨-, -, -, -, h0, h1, -⟩ := idx_facts t
  show ((cfg0.win 2).blk t).view.read (Elt Ideal) (V m c (Pipeline.arrRef spec0 2)) (ix2 p q) = _
  rw [View.read_apply]
  show V m c main_arg2 _ = _
  rw [V_main_arg2 m c]
  refine congrArg (m ((c.tc : Thread nD τ).loc main_arg2)) (funext fun a => Fin.ext ?_)
  match a with
  | ⟨0, _⟩ => show win0_2.index t (0 : Fin 2) * 8192 + 1 * p.val = b.val; rw [h0, hb]; omega
  | ⟨1, _⟩ => show win0_2.index t (1 : Fin 2) * 128 + 1 * q.val = q.val; rw [h1]; omega

/-- Row p of block t of the mask column is the mask of row 8192 t + p. -/
theorem b3_read (c : Dev nD) (t : Fin cfg0.N) (p : Fin 8192) (b : Fin 131072)
    (hb : b.val = 8192 * t.val + p.val) : b3 m c t (ix2 p 0) = maskOf (A4 m c) b := by
  obtain ⟨-, -, -, -, -, -, h0, h1, -⟩ := idx_facts t
  show ((cfg0.win 3).blk t).view.read (Elt Ideal) (V m c (Pipeline.arrRef spec0 3)) (ix2 p 0) = _
  rw [View.read_apply, ← mask_read m c b]
  show (V m c main_v11 : S131072x1.Idx → EReal) _ = _
  refine congrArg (V m c main_v11 : S131072x1.Idx → EReal) (funext fun a => Fin.ext ?_)
  match a with
  | ⟨0, _⟩ => show win0_3.index t (0 : Fin 2) * 8192 + 1 * p.val = b.val; rw [h0, hb]; omega
  | ⟨1, _⟩ => show win0_3.index t (1 : Fin 2) * 1 + 1 * 0 = 0; rw [h1]

/-- The weight block is the weight row, whatever the point. -/
theorem b4_read (c : Dev nD) (hin : InRange (A3 m c)) (t : Fin cfg0.N) (q : Fin 128) :
    b4 m c t (ix2 0 q) = weight (A3 m c) q := by
  obtain ⟨-, -, -, -, -, -, -, -, h0, h1⟩ := idx_facts t
  show ((cfg0.win 4).blk t).view.read (Elt Ideal) (V m c (Pipeline.arrRef spec0 4)) (ix2 0 q) = _
  rw [View.read_apply, ← weight_read m c hin q]
  show (V m c main_v9 : S1x128.Idx → EReal) _ = _
  refine congrArg (V m c main_v9 : S1x128.Idx → EReal) (funext fun a => Fin.ext ?_)
  match a with
  | ⟨0, _⟩ => show win0_4.index t (0 : Fin 2) * 1 + 1 * 0 = 0; rw [h0]
  | ⟨1, _⟩ => show win0_4.index t (1 : Fin 2) * 128 + 1 * q.val = q.val; rw [h1]; omega

/-! ## A tile's loss is the loss of its 8192 rows -/

/-- The tile a grid point walks. -/
abbrev tileOf (t : Fin cfg0.N) : Fin 16 := ⟨t.val, lt_of_lt_of_eq t.isLt N16⟩

/-- The loss of the tile point t walks. -/
def tileAt (c : Dev nD) (t : Fin cfg0.N) : EReal :=
  tileLoss (b0 m c t) (b1 m c t) (b2 m c t) (b3 m c t) (b4 m c t)

/-- It is the loss of the tile's 8192 rows, chunk by chunk. -/
theorem tile_eq (c : Dev nD) (hin : InRange (A3 m c)) (t : Fin cfg0.N) :
    tileAt m c t = ∑ j : Fin 4, ∑ r : Fin 2048,
      rowLossW (A0 m c) (A1 m c) (A2 m c) (A3 m c) (A4 m c) (rowOf (tileOf t) j r) :=
  tile_eq_of (A0 m c) (A1 m c) (A2 m c) (A3 m c) (A4 m c) (b0 m c t) (b1 m c t) (b2 m c t) (b3 m c t) (b4 m c t)
    (tileOf t) (b0_read m c t) (b1_read m c t) (b2_read m c t) (b3_read m c t) (b4_read m c hin t)

/-! ## The accumulator, point by point -/

/-- The loss of the tile at grid position n (zero past the grid). -/
def tileN (c : Dev nD) (n : ℕ) : EReal := if h : n < cfg0.N then tileAt m c ⟨n, h⟩ else 0

theorem tileN_eq (c : Dev nD) (n : ℕ) (h : n < cfg0.N) : tileN m c n = tileAt m c ⟨n, h⟩ := dif_pos h

/-- The accumulator after point n: reset and the tile's loss at a core's first tile, else what the point before left
    plus the tile's loss. -/
def accN (c : Dev nD) : ℕ → EReal
  | 0 => cZero + tileN m c 0
  | n + 1 => if (n + 1) % 8 = 0 then cZero + tileN m c (n + 1) else accN c n + tileN m c (n + 1)

theorem accN_reset (c : Dev nD) (n : ℕ) (h0 : (n + 1) % 8 = 0) : accN m c (n + 1) = cZero + tileN m c (n + 1) := by
  rw [accN]; exact if_pos h0

theorem accN_step (c : Dev nD) (n : ℕ) (h0 : ¬(n + 1) % 8 = 0) :
    accN m c (n + 1) = accN m c n + tileN m c (n + 1) := by
  rw [accN]; exact if_neg h0

/-- What the generated run records after point n — the output's staging block and the scratch — is the accumulator:
    the scratch always, the output block at a core's last tile. -/
theorem outs_eq (c : Dev nD) : ∀ (n : ℕ) (h : n < cfg0.N),
    (outsAt0 m c n h).2 = (fun _ => accN m c n) ∧ (n % 8 = 7 → (outsAt0 m c n h).1 = fun _ => accN m c n)
  | 0, h => by
    have h0 : (⟨0, h⟩ : Fin cfg0.N).val % 8 = 0 := rfl
    have h1 : ¬(⟨0, h⟩ : Fin cfg0.N).val % 8 = 7 := by show ¬(0 % 8 = 7); decide
    rw [outsAt0_A m c ⟨0, h⟩ h0 h1]
    dsimp only
    refine ⟨?_, fun h7 => absurd h7 (by show ¬(0 % 8 = 7); decide)⟩
    let t : Fin cfg0.N := ⟨0, h⟩
    show _ = fun _ => cZero + tileN m c 0
    rw [tileN_eq m c 0 h]
    exact Cert.KernelIdeal.Tile.sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) _ _
  | n + 1, h => by
    obtain ⟨ih, -⟩ := outs_eq c n (Nat.lt_of_succ_lt h)
    let t : Fin cfg0.N := ⟨n + 1, h⟩
    have hx : (outsAt0 m c (t.val - 1) (Nat.lt_of_le_of_lt (Nat.sub_le _ _) t.isLt)).2
        = fun _ => accN m c n := ih
    by_cases h0 : (n + 1) % 8 = 0
    · have h1 : ¬(n + 1) % 8 = 7 := by omega
      rw [outsAt0_A m c t h0 h1]
      dsimp only
      refine ⟨?_, fun h7 => absurd h7 h1⟩
      rw [accN_reset m c n h0, tileN_eq m c (n + 1) h]
      exact Cert.KernelIdeal.Tile.sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) _ _
    · by_cases h1 : (n + 1) % 8 = 7
      · rw [outsAt0_C m c t h0 h1]
        dsimp only
        rw [accN_step m c n h0, tileN_eq m c (n + 1) h]
        refine ⟨?_, fun _ => ?_⟩
        · rw [Cert.KernelIdeal.Tile.sout_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) _ _, hx]
          rfl
        · rw [Cert.KernelIdeal.Tile.out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) _ _, hx]
          rfl
      · rw [outsAt0_B m c t h0 h1]
        dsimp only
        rw [accN_step m c n h0, tileN_eq m c (n + 1) h]
        refine ⟨?_, fun h7 => absurd h7 h1⟩
        rw [Cert.KernelIdeal.Tile.sout_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) _ _, hx]
        rfl

/-- On core q, after its (k+1)-th tile, the accumulator is the sum of its first k+1 tiles' losses. -/
theorem accN_core (c : Dev nD) (q : ℕ) : ∀ k : ℕ, k < 8 →
    accN m c (8 * q + k) = ∑ i ∈ Finset.range (k + 1), tileN m c (8 * q + i)
  | 0, _ => by
    rw [Finset.sum_range_one]
    show accN m c (8 * q) = tileN m c (8 * q)
    cases q with
    | zero => show cZero + tileN m c 0 = _; rw [cZero_eq, zero_add]
    | succ q =>
      have e : 8 * (q + 1) = (8 * q + 7) + 1 := by omega
      rw [e, accN_reset m c (8 * q + 7) (by omega), cZero_eq, zero_add]
  | k + 1, hk => by
    have e : 8 * q + (k + 1) = (8 * q + k) + 1 := by omega
    rw [Finset.sum_range_succ, ← accN_core c q k (by omega), e, accN_step m c (8 * q + k) (by omega)]

/-! ## The output array -/

/-- Window 5's block at point t is entry t / 8 of the [2, 1, 1] output. -/
theorem idx5 : ∀ t : Fin cfg0.N, win0_5.index t (0 : Fin 3) = t.val / 8 :=
  (by decide +kernel : ∀ t : Fin grid0.N, _)

/-- The output array after the run: entry q is the accumulator after core q's last tile. -/
def outArr (c : Dev nD) : S2x1x1.Idx → EReal :=
  fun i => accN m c (8 * (i 0).val + 7)

/-- What a core's last tile writes back is that entry. -/
theorem flushed_eq (c : Dev nD) (t : Fin cfg0.N) (hf : (cfg0.win 5).flush t = true) :
    (dats m 0 c).flushed 5 t = ((cfg0.win 5).blk t).view.read (Elt Ideal) (outArr m c) := by
  have h7 : t.val % 8 = 7 := (flush0_5 t).mp hf
  show (cfg0.win 5).cut (grid0.coords t) ((dats m 0 c).after 5 t) = _
  rw [after0_5, ((outs_eq m c t.val t.isLt).2 h7)]
  funext y
  rw [View.read_apply]
  show accN m c t.val = outArr m c (((cfg0.win 5).blk t).view.emb y)
  unfold outArr
  refine congrArg (accN m c) ?_
  show t.val = 8 * (win0_5.index t (0 : Fin 3) * 1 + 1 * (y 0).val) + 7
  have hy : (y 0).val = 0 := by have : (y 0).val < 1 := (y 0).isLt; omega
  rw [idx5 t, hy]
  omega

/-- Every entry of the output is written back by its core's last tile. -/
theorem cover (c : Dev nD) :
    ∀ i : ((cfg0.win 5).arr.view.loc (c.tc : Thread nD τ)).2.ty.Idx,
      ∃ t : Fin cfg0.N, (cfg0.win 5).flush t = true ∧ i ∈ ((cfg0.win 5).blk t).view.set := by
  intro i
  have hi0 : (i 0).val < 2 := (i 0).isLt
  have hi1 : (i 1).val < 1 := (i 1).isLt
  have hi2 : (i 2).val < 1 := (i 2).isLt
  have key : ∀ t : Fin cfg0.N, win0_5.index t (0 : Fin 3) = t.val / 8 ∧ win0_5.index t (1 : Fin 3) = 0
      ∧ win0_5.index t (2 : Fin 3) = 0 := (by decide +kernel : ∀ t : Fin grid0.N, _)
  let t : Fin cfg0.N := ⟨8 * (i 0).val + 7, by rw [N16]; omega⟩
  obtain ⟨k0, k1, k2⟩ := key t
  have ht : t.val / 8 = (i 0).val := by show (8 * (i 0).val + 7) / 8 = (i 0).val; omega
  refine ⟨t, (flush0_5 t).mpr (by show (8 * (i 0).val + 7) % 8 = 7; omega), ?_⟩
  show i ∈ ((View.whole main_v12).slice (win0_5.rect t)).set
  rw [View.set_slice_whole, Rect.mem_set_unit]
  intro a
  match a with
  | ⟨0, _⟩ =>
    show win0_5.index t (0 : Fin 3) * 1 ≤ (i 0).val ∧ (i 0).val < win0_5.index t (0 : Fin 3) * 1 + 1
    rw [k0, ht]; omega
  | ⟨1, _⟩ =>
    show win0_5.index t (1 : Fin 3) * 1 ≤ (i 1).val ∧ (i 1).val < win0_5.index t (1 : Fin 3) * 1 + 1
    rw [k1]; omega
  | ⟨2, _⟩ =>
    show win0_5.index t (2 : Fin 3) * 1 ≤ (i 2).val ∧ (i 2).val < win0_5.index t (2 : Fin 3) * 1 + 1
    rw [k2]; omega

/-- So the output array ends holding, per core, the accumulator after its last tile. -/
theorem final (c : Dev nD) : (dats m 0 c).arrAt 5 cfg0.N = outArr m c :=
  (dats m 0 c).arrAt_eq_of_cover 5 (outArr m c) (flushed_eq m c) (cover c)

/-! ## The lines after the kernel -/

/-- The result as those lines compute it: the two entries added from zero, over 64 times the mask's sum from zero. -/
theorem tail_eq (c : Dev nD) :
    (Pipeline.afterTail₀ cfgs (dats m) 0 (V0 m) [hostOps1] c main_v17 : S_.Idx → EReal)
      = Host.divf (Host.reduceAdd (F := Ideal) (outArr m c) (constant (F := Ideal) S_ .f32 0x00000000#32)
            reducesTo_S2x1x1_S_d0_1_2 h_S_)
          (mulf (Host.reduceAdd (F := Ideal) (uitofp (F := Ideal) .f32 (A4 m c)) (constant (F := Ideal) S_ .f32 0x00000000#32)
            reducesTo_S131072_S_d0 h_S_) (constant (F := Ideal) S_ .f32 0x42800000#32)) := by
  have e12 : Pipeline.withArrays (cfgs 0).spec c (V0 m c) (fun w => (dats m 0 c).arrAt w (cfgs 0).N)
      (Proc.devRef .tc main_v12) = outArr m c :=
    (Pipeline.withArrays_arr spec0 launch0.win.arr_inj c _ _ 5).trans (final m c)
  have e4 : Pipeline.withArrays (cfgs 0).spec c (V0 m c) (fun w => (dats m 0 c).arrAt w (cfgs 0).N)
      (Proc.devRef .tc main_arg4) = A4 m c :=
    (Pipeline.withArrays_of_ne _ c (V0 m c) _ main_arg4
      (by exact (by decide : ∀ w, Pipeline.arrRef spec0 w ≠ main_arg4))).trans (V_main_arg4 m c)
  unfold Pipeline.afterTail₀
  show StableHlo.after hostOps1 _ (Proc.devRef .tc main_v17) = _
  after_results
  rw [e12, e4]

/-! ## The sums -/

/-- The 16 tiles are the 8 tiles of each of the 2 cores. -/
theorem sum_tiles (f : ℕ → EReal) : ∑ t : Fin 16, f t.val = ∑ q : Fin 2, ∑ i : Fin 8, f (8 * q.val + i.val) := by
  have e1 : ∑ t : Fin 16, f t.val = ∑ p : Fin 2 × Fin 8, f (finProdFinEquiv p).val :=
    (Equiv.sum_comp (finProdFinEquiv (m := 2) (n := 8)) fun t : Fin 16 => f t.val).symm
  rw [e1, Fintype.sum_prod_type]
  refine Finset.sum_congr rfl fun q _ => Finset.sum_congr rfl fun i _ => congrArg f ?_
  simp only [finProdFinEquiv_apply_val]
  omega

/-- The output array's entries, by core. -/
theorem sum_out (c : Dev nD) : ∑ i : S2x1x1.Idx, outArr m c i = ∑ q : Fin 2, accN m c (8 * q.val + 7) := by
  let e : S2x1x1.Idx ≃ Fin 2 :=
    { toFun := fun i => i 0
      invFun := fun q => ix3 q 0 0
      left_inv := fun i => by
        funext a
        match a with
        | ⟨0, _⟩ => rfl
        | ⟨1, _⟩ => exact Fin.ext (by have h : (i 1).val < 1 := (i 1).isLt; show 0 = (i 1).val; omega)
        | ⟨2, _⟩ => exact Fin.ext (by have h : (i 2).val < 1 := (i 2).isLt; show 0 = (i 2).val; omega)
      right_inv := fun _ => rfl }
  exact Fintype.sum_equiv e _ _ fun _ => rfl

/-- The two entries of the output add up to the loss of all rows. -/
theorem out_total (c : Dev nD) (hin : InRange (A3 m c)) :
    ∑ i : S2x1x1.Idx, outArr m c i = total (A0 m c) (A1 m c) (A2 m c) (A3 m c) (A4 m c) := by
  have h16 : ∀ t : Fin 16, tileN m c t.val
      = ∑ j : Fin 4, ∑ r : Fin 2048, rowLossW (A0 m c) (A1 m c) (A2 m c) (A3 m c) (A4 m c) (rowOf t j r) := by
    intro t
    have ht : t.val < cfg0.N := by rw [N16]; exact t.isLt
    rw [tileN_eq m c t.val ht, tile_eq m c hin ⟨t.val, ht⟩]
  unfold total
  rw [sum_rows, sum_out]
  have hq : ∀ q : Fin 2, accN m c (8 * q.val + 7) = ∑ i : Fin 8, tileN m c (8 * q.val + i.val) := by
    intro q
    rw [accN_core m c q.val 7 (by omega), Finset.sum_range]
  rw [Finset.sum_congr rfl fun q _ => hq q, ← sum_tiles (tileN m c)]
  exact Finset.sum_congr rfl fun t _ => h16 t

/-- The mask's numbers, by row. -/
theorem mask_idx (x4 : IVec S131072 1) :
    ∑ j : S131072.Idx, uitofp (F := Ideal) .f32 x4 j = ∑ b : Fin 131072, maskOf x4 b := by
  let e : S131072.Idx ≃ Fin 131072 :=
    { toFun := fun j => j 0
      invFun := fun b => ix1 b
      left_inv := fun j => (eq_ix1 j).symm
      right_inv := fun _ => rfl }
  refine Fintype.sum_equiv e _ _ fun j => ?_
  exact congrArg (fun z => FloatOps.uitofp (F := Ideal) .f32 (x4 z)) (eq_ix1 j)

/-- A host sum of a vector into a scalar, at Ideal, is the initial value plus the sum over every index. -/
theorem mask_red (y0 : S131072.Idx → EReal) (i : S_.Idx) :
    Host.reduceAdd (F := Ideal) y0 (constant (F := Ideal) S_ .f32 0x00000000#32) reducesTo_S131072_S_d0 h_S_ i
      = cZero + ∑ j : S131072.Idx, y0 j := by
  simp only [Host.reduceAdd, Ideal.hostReduceAdd_def]
  exact Ideal.hostReduceAdd_total reducesTo_S131072_S_d0 (fun b => b.elim0) y0 _ i

/-- So the mask's host sum is the count. -/
theorem mask_sum (x4 : IVec S131072 1) (i : S_.Idx) :
    Host.reduceAdd (F := Ideal) (uitofp (F := Ideal) .f32 x4) (constant (F := Ideal) S_ .f32 0x00000000#32)
      reducesTo_S131072_S_d0 h_S_ i = Cert.SemiLoss.count x4 := by
  unfold Cert.SemiLoss.count
  rw [mask_red, mask_idx]

/-- The two output entries added from zero. -/
theorem out_sum (y : S2x1x1.Idx → EReal) (i : S_.Idx) :
    Host.reduceAdd (F := Ideal) y (constant (F := Ideal) S_ .f32 0x00000000#32) reducesTo_S2x1x1_S_d0_1_2 h_S_ i
      = cZero + ∑ j : S2x1x1.Idx, y j := by
  simp only [Host.reduceAdd, Ideal.hostReduceAdd_def]
  exact Ideal.hostReduceAdd_total reducesTo_S2x1x1_S_d0_1_2 (fun b => b.elim0) y _ i

/-- The lines after the kernel end at the specification's result. -/
theorem tail_result (c : Dev nD) (hin : InRange (A3 m c)) :
    (Pipeline.afterTail₀ cfgs (dats m) 0 (V0 m) [hostOps1] c main_v17 : S_.Idx → EReal)
      = fun _ => result (A0 m c) (A1 m c) (A2 m c) (A3 m c) (A4 m c) := by
  rw [tail_eq]
  funext i
  have hT := out_sum (outArr m c) i
  rw [out_total m c hin] at hT
  have hC := mask_sum (A4 m c) i
  generalize Host.reduceAdd (F := Ideal) (outArr m c) (constant (F := Ideal) S_ .f32 0x00000000#32)
    reducesTo_S2x1x1_S_d0_1_2 h_S_ = X at hT ⊢
  generalize Host.reduceAdd (F := Ideal) (uitofp (F := Ideal) .f32 (A4 m c)) (constant (F := Ideal) S_ .f32 0x00000000#32)
    reducesTo_S131072_S_d0 h_S_ = Yv at hC ⊢
  unfold result
  exact div_tail X Yv i _ _ hT hC

/-! ## The run -/

/-- The kernel's run, read: for index words in range the result is the result of the specification, and the arguments
    end as they began. -/
theorem run (hin : ∀ c : Dev nD, InRange (m ((c.tc : Thread nD τ).loc main_arg3))) :
    θ_run defs (onTc (τ := τ) (main (F := Ideal))) ⟨m, fun _ => 0, ρ⟩ (fun r => ∀ c : Dev nD,
      r.2.mem ((c.tc : Thread nD τ).loc main_v17)
        = (fun _ => result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v17 (Pipeline.mem_restRefs_of main_v17 (by decide) (by decide))).trans (tail_result m c (hin c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Value

end
-- ==== Proof.GatherCol.lean ====
/-
  The reference's column gather. Where every start index, read as a signed integer, is a column number below 128, the
  clamp that keeps a one-column slice inside the array does nothing, and the gathered element at (b, k) is the
  array's element at row b and the k-th named column.
-/
import proofs.«406414_j7834020348691_3_alg».proof.Proof.Spec
import proofs.«406414_j7834020348691_3_alg».proof.ReferenceIdeal

noncomputable section

namespace Cert.ReferenceIdeal.Cols

open Idealize.ShloMosaic Idealize.ShloMosaic.ValueIdx Cert.ReferenceIdeal

variable [Cert.ReferenceIdeal.Facts₀]

/-- The gather of whole columns at in-range start indices reads the named column. -/
theorem gather_col {α : Type} (X : S131072x128.Idx → α) (iv : IVec S64x1 32) (colf : Fin 64 → Fin 128)
    (h : ∀ k : Fin 64, (iv (ix2 k 0)).toInt = ((colf k).val : ℤ)) (b : Fin 131072) (k : Fin 64) :
    Host.gather gather_S131072x128_S64x1_S131072x64_0_1_n_n_1_1_1310721 X iv (ix2 b k) = X (ix2 b (colf k)) := by
  unfold Host.gather
  congr 1
  funext a
  refine Fin.ext ?_
  match a with
  | ⟨0, _⟩ =>
    -- the row axis: not named by the start index map, kept as the result's offset axis
    show gather_S131072x128_S64x1_S131072x64_0_1_n_n_1_1_1310721.start (ix2 b k) iv 0
        + gather_S131072x128_S64x1_S131072x64_0_1_n_n_1_1_1310721.batchCoord (ix2 b k) 0
        + gather_S131072x128_S64x1_S131072x64_0_1_n_n_1_1_1310721.offCoord (ix2 b k) 0 = b.val
    have hs : gather_S131072x128_S64x1_S131072x64_0_1_n_n_1_1_1310721.start (ix2 b k) iv 0 = 0 :=
      dif_neg (show (0 : Fin 2) ∉ ([1] : List (Fin 2)) by decide)
    have ho : gather_S131072x128_S64x1_S131072x64_0_1_n_n_1_1_1310721.offCoord (ix2 b k) 0 = b.val :=
      (dif_pos (show (0 : Fin 2) ∈ ([0] : List (Fin 2)) by decide)).trans rfl
    rw [GatherDims.batchCoord_eq_zero _ _ _ List.not_mem_nil, hs, ho]
    omega
  | ⟨1, _⟩ =>
    -- the column axis: collapsed, its start the k-th index word, which the clamp to [0, 127] leaves alone
    show gather_S131072x128_S64x1_S131072x64_0_1_n_n_1_1_1310721.start (ix2 b k) iv 1
        + gather_S131072x128_S64x1_S131072x64_0_1_n_n_1_1_1310721.batchCoord (ix2 b k) 1
        + gather_S131072x128_S64x1_S131072x64_0_1_n_n_1_1_1310721.offCoord (ix2 b k) 1 = (colf k).val
    have ho : gather_S131072x128_S64x1_S131072x64_0_1_n_n_1_1_1310721.offCoord (ix2 b k) 1 = 0 :=
      dif_neg (show (1 : Fin 2) ∉ ([0] : List (Fin 2)) by decide)
    have hsi : gather_S131072x128_S64x1_S131072x64_0_1_n_n_1_1_1310721.siIdx (ix2 b k)
        ⟨List.idxOf (1 : Fin 2) gather_S131072x128_S64x1_S131072x64_0_1_n_n_1_1_1310721.startIndexMap,
          List.idxOf_lt_length_iff.2 (List.mem_singleton.mpr rfl)⟩ = ix2 k 0 := by
      funext c; refine Fin.ext ?_
      match c with
      | ⟨0, _⟩ => rfl
      | ⟨1, _⟩ => rfl
    have hs : gather_S131072x128_S64x1_S131072x64_0_1_n_n_1_1_1310721.start (ix2 b k) iv 1 = (colf k).val := by
      unfold GatherDims.start
      refine (dif_pos (show (1 : Fin 2) ∈ ([1] : List (Fin 2)) by decide)).trans ?_
      rw [hsi, h k]
      show min (((colf k).val : ℤ)).toNat (128 - 1) = (colf k).val
      have hlt := (colf k).isLt
      rw [Int.toNat_natCast]
      omega
    rw [GatherDims.batchCoord_eq_zero _ _ _ List.not_mem_nil, hs, ho]
    omega

end Cert.ReferenceIdeal.Cols

end
-- ==== Proof.RefValue.lean ====
/-
  The reference's result. Read one operation at a time at an index, with each of its three column gathers reading the
  named column, the reference's result is the loss summed over all rows and the 64 named columns, each row masked, from
  zero, over 64 times the number of masked rows.
-/
import proofs.«406414_j7834020348691_3_alg».proof.Proof.Gen.ReferenceIdeal.Read
import proofs.«406414_j7834020348691_3_alg».proof.Proof.GatherCol
import proofs.«406414_j7834020348691_3_alg».proof.Proof.IndexWrap

noncomputable section

namespace Cert.ReferenceIdeal.RefValue

open Idealize.ShloMosaic Idealize.ShloMosaic.ValueIdx Cert.ReferenceIdeal Cert.ReferenceIdeal.Gen Cert.SemiLoss
open Cert.ReferenceIdeal.Read

/-! ## Sums over a one-axis index set -/

/-- A sum over a rank-1 index set is the sum over its one coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ f (fun a => f (ix1 a))
    (fun i => congrArg f (eq_ix1 i))

/-! ## The index words the three gathers start from

Each gather's start indices are the index words with 128 added to the negative ones, laid out as a 64 x 1 array. For a
word in [-128, 128) the wrapped word, read signed, is the column the word names. -/

section Words
variable (x3 : (⟨S64, .i32⟩ : BufTy).Contents (Elt Ideal))

private theorem wrapped4 (k : Fin 64) : val_main_v4 (F := Ideal) x3 (ix1 k) = wrapWord (x3 (ix1 k)) := by
  rw [val_main_v4_apply, val_main_v1_apply, val_main_v3_apply, val_main_v0_apply, val_main_v2_apply,
    val_main_c_apply, val_main_c_0_apply]
  rfl

private theorem wrapped11 (k : Fin 64) : val_main_v11 (F := Ideal) x3 (ix1 k) = wrapWord (x3 (ix1 k)) := by
  rw [val_main_v11_apply, val_main_v8_apply, val_main_v10_apply, val_main_v7_apply, val_main_v9_apply,
    val_main_c_1_apply, val_main_c_2_apply]
  rfl

private theorem wrapped18 (k : Fin 64) : val_main_v18 (F := Ideal) x3 (ix1 k) = wrapWord (x3 (ix1 k)) := by
  rw [val_main_v18_apply, val_main_v15_apply, val_main_v17_apply, val_main_v14_apply, val_main_v16_apply,
    val_main_c_3_apply, val_main_c_4_apply]
  rfl

private theorem start5 (h : InRange x3) (k : Fin 64) :
    (val_main_v5 (F := Ideal) x3 (ix2 k 0)).toInt = ((col x3 k).val : ℤ) := by
  have hi : idx_main_v5 (ix2 k (0 : Fin 1)) = ix1 k := eq_ix1 _
  rw [val_main_v5_apply, hi, wrapped4]
  exact wrapWord_toInt _ (h k).1 (h k).2

private theorem start12 (h : InRange x3) (k : Fin 64) :
    (val_main_v12 (F := Ideal) x3 (ix2 k 0)).toInt = ((col x3 k).val : ℤ) := by
  have hi : idx_main_v12 (ix2 k (0 : Fin 1)) = ix1 k := eq_ix1 _
  rw [val_main_v12_apply, hi, wrapped11]
  exact wrapWord_toInt _ (h k).1 (h k).2

private theorem start19 (h : InRange x3) (k : Fin 64) :
    (val_main_v19 (F := Ideal) x3 (ix2 k 0)).toInt = ((col x3 k).val : ℤ) := by
  have hi : idx_main_v19 (ix2 k (0 : Fin 1)) = ix1 k := eq_ix1 _
  rw [val_main_v19_apply, hi, wrapped18]
  exact wrapWord_toInt _ (h k).1 (h k).2

end Words

/-! ## The three gathers and the mask, at row b and named column k -/

section Gathers
variable (x : (⟨S131072x128, .f32⟩ : BufTy).Contents (Elt Ideal)) (x3 : (⟨S64, .i32⟩ : BufTy).Contents (Elt Ideal))
  (h : InRange x3) (b : Fin 131072) (k : Fin 64)
include h

private theorem gathered6 : val_main_v6 (F := Ideal) x x3 (ix2 b k) = x (ix2 b (col x3 k)) :=
  Cols.gather_col x (val_main_v5 (F := Ideal) x3) (col x3) (start5 x3 h) b k

private theorem gathered13 : val_main_v13 (F := Ideal) x x3 (ix2 b k) = x (ix2 b (col x3 k)) :=
  Cols.gather_col x (val_main_v12 (F := Ideal) x3) (col x3) (start12 x3 h) b k

private theorem gathered20 : val_main_v20 (F := Ideal) x x3 (ix2 b k) = x (ix2 b (col x3 k)) :=
  Cols.gather_col x (val_main_v19 (F := Ideal) x3) (col x3) (start19 x3 h) b k

end Gathers

/-- The mask, converted and spread along the 64 named columns, is the row's mask at every one of them. -/
private theorem mask54 (x4 : (⟨S131072, .i1⟩ : BufTy).Contents (Elt Ideal)) (b : Fin 131072) (k : Fin 64) :
    val_main_v54 (F := Ideal) x4 (ix2 b k) = maskOf x4 b := by
  have hi : idx_main_v53 (idx_main_v54 (ix2 b k)) = ix1 b := eq_ix1 _
  rw [val_main_v54_apply, val_main_v53_apply, val_main_v52_apply, hi]
  rfl

/-! ## One element of the masked loss array -/

/-- At row b and named column k the reference's masked loss is the loss at (b, the k-th named column) times the row's
    mask: the three gathered values are the three arrays at that column, and the operations between the gathers and
    the product with the mask are, one for one, the per-element loss. -/
private theorem masked_loss (x0 x1 x2 : (⟨S131072x128, .f32⟩ : BufTy).Contents (Elt Ideal))
    (x3 : (⟨S64, .i32⟩ : BufTy).Contents (Elt Ideal)) (x4 : (⟨S131072, .i1⟩ : BufTy).Contents (Elt Ideal))
    (h : InRange x3) (b : Fin 131072) (k : Fin 64) :
    val_main_v55 (F := Ideal) x0 x1 x2 x3 x4 (ix2 b k) = lossAt x0 x1 x2 b (col x3 k) * maskOf x4 b := by
  simp only [val_main_v55_apply, val_main_v51_apply, val_main_v50_apply, val_main_v49_apply, val_main_v48_apply,
    val_main_v47_apply, val_main_v46_apply, val_main_v45_apply, val_main_v44_apply, val_main_v43_apply,
    val_main_v42_apply, val_main_v41_apply, val_main_v40_apply, val_main_v39_apply, val_main_v38_apply,
    val_main_v37_apply, val_main_v36_apply, val_main_v35_apply, val_main_v34_apply, val_main_v33_apply,
    val_main_v32_apply, val_main_v31_apply, val_main_v30_apply, val_main_v29_apply, val_main_v28_apply,
    val_main_v27_apply, val_main_v26_apply, val_main_v25_apply, val_main_v24_apply, val_main_v23_apply,
    val_main_v22_apply, val_main_v21_apply, val_main_cst_apply, val_main_cst_5_apply, val_main_cst_6_apply,
    val_main_cst_7_apply, val_main_cst_8_apply, val_main_cst_9_apply, val_main_cst_10_apply, val_main_cst_11_apply,
    gathered6 _ x3 h, gathered13 _ x3 h, gathered20 _ x3 h, mask54,
    Ideal.mulf_def, Ideal.addf_def, Ideal.subf_def, Ideal.negf_def, Ideal.hostNegf_def, Ideal.maximumf_def,
    Ideal.hostUnary_log_def, Ideal.hostDivf_def, Ideal.cmpf_def, Ideal.ofBits_def,
    lossAt, per, sharp, clog]

/-! ## The result -/

/-- The reference's result stage at Ideal, for index words in range, is the result in the reference's arrangement. -/
theorem result_eq (x0 x1 x2 : (⟨S131072x128, .f32⟩ : BufTy).Contents (Elt Ideal))
    (x3 : (⟨S64, .i32⟩ : BufTy).Contents (Elt Ideal)) (x4 : (⟨S131072, .i1⟩ : BufTy).Contents (Elt Ideal))
    (h : InRange x3) :
    Cert.ReferenceIdeal.Read.val_main_v59 (F := Ideal) x0 x1 x2 x3 x4 = fun _ => resultG x0 x1 x2 x3 x4 := by
  funext i
  rw [val_main_v59_apply, val_main_v56_apply, val_main_v58_apply, val_main_v57_apply, sum_idx2, sum_idx1]
  simp only [masked_loss x0 x1 x2 x3 x4 h, val_main_v52_apply, val_main_cst_12_apply, val_main_cst_13_apply,
    val_main_cst_14_apply, Ideal.hostDivf_def, Ideal.mulf_def, Ideal.ofBits_def]
  rfl

end Cert.ReferenceIdeal.RefValue

end
-- ==== Proof.lean ====
/-
  The kernel and its reference compute one extended real.

  Both programs take three [131072, 128] arrays, 64 column indices and a row mask. The reference gathers, for each
  row, the per-element loss (a clamped binary cross-entropy plus two squared distances from a sharpened pseudo-label)
  at the 64 indexed columns, masks the row, sums everything and divides by 64 times the number of masked rows. The
  kernel never gathers: it takes the loss at all 128 columns, weights column c by the number of index words naming c
  (a scatter-add of ones), sums along the columns, masks, and accumulates tile by tile on each of two cores; the host
  adds the two cores' sums and divides by the same count.

  The precondition asks, beyond finite floats, that every index word lie in [-128, 128): there both programs name the
  same column (a negative word counts from the end), the reference's gather clamps nothing and the kernel's scatter-add
  drops nothing. Then a column's loss times its multiplicity is that loss added once per index word naming it, which
  holds on the extended reals for every value, finite or not, because a multiplicity is a sum of non-negative ones; a
  mask is 0 or 1 and passes through a finite sum; and the rows are the tiles' chunks' rows. The float part of the
  precondition is never used.
-/
import proofs.«406414_j7834020348691_3_alg».proof.Defs
import proofs.«406414_j7834020348691_3_alg».proof.Proof.Gen.Kernel
import proofs.«406414_j7834020348691_3_alg».proof.Proof.Gen.Kernel.Skeleton
import proofs.«406414_j7834020348691_3_alg».proof.Proof.Gen.Kernel.Launch
import proofs.«406414_j7834020348691_3_alg».proof.Proof.Gen.Kernel.Points
import proofs.«406414_j7834020348691_3_alg».proof.Proof.Gen.Kernel.Frame
import proofs.«406414_j7834020348691_3_alg».proof.Proof.Gen.KernelIdeal
import proofs.«406414_j7834020348691_3_alg».proof.Proof.Gen.KernelIdeal.Skeleton
import proofs.«406414_j7834020348691_3_alg».proof.Proof.Gen.KernelIdeal.Launch
import proofs.«406414_j7834020348691_3_alg».proof.Proof.Gen.KernelIdeal.Points
import proofs.«406414_j7834020348691_3_alg».proof.Proof.Gen.KernelIdeal.Frame
import proofs.«406414_j7834020348691_3_alg».proof.Proof.Gen.ReferenceIdeal
import proofs.«406414_j7834020348691_3_alg».proof.Proof.Gen.ReferenceIdeal.Run
import proofs.«406414_j7834020348691_3_alg».proof.Proof.Gen.ReferenceIdeal.Read
import proofs.«406414_j7834020348691_3_alg».proof.Proof.Gen.Pre_finite_inputs
import proofs.«406414_j7834020348691_3_alg».proof.Proof.KerValue
import proofs.«406414_j7834020348691_3_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, with index words in range, the kernel ends at the specification's result
    and the reference at the same result in its own arrangement; the two are equal. -/
theorem algebraic : Cert.algebraic_KernelIdeal_ReferenceIdeal := by
  intro m ρ m' ρ' hpre hagree
  have hin : ∀ c : Dev Cert.KernelIdeal.nD, Cert.SemiLoss.InRange
      (m ((c.tc : Thread Cert.KernelIdeal.nD Cert.KernelIdeal.τ).loc Cert.KernelIdeal.main_arg3)) :=
    fun c => Cert.SemiLoss.inRange_of_pre _ _ _ _ _ (hpre c)
  refine ⟨_, Cert.KernelIdeal.Value.run m ρ hin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, (hagree c).1, (hagree c).2.1, (hagree c).2.2.1, (hagree c).2.2.2.1,
    (hagree c).2.2.2.2, Cert.ReferenceIdeal.RefValue.result_eq _ _ _ _ _ (hin c), ← Cert.SemiLoss.result_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
